-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x64x5 : Shape := ⟨3, ![512, 64, 5]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x64x5 : S_.BroadcastsInDim S512x64x5 (![] : Fin 0 → Fin S512x64x5.rank)
  reducesTo_S512x64x5_S_d0_1_2 : S512x64x5.ReducesTo [0, 1, 2] S_

variable [Facts]

def fn {F : FTy → Type} [FloatOps F] (main_arg0 : FVec F S1024x512 .f32) (main_arg1 : FVec F S512x64x5 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x64x5 .f32 := Host.absf main_arg1
  let main_cst_0 : FVec F S_ .f32 := constant S_ .f32 0x7F800000#32
  let main_v5 : FVec F S512x64x5 .f32 := broadcastInDim S512x64x5 ![] bcast_S_S512x64x5 main_cst_0
  let main_v6 : IVec S512x64x5 1 := cmpf .olt main_v4 main_v5
  let main_c_1 : IVec S_ 1 := constantI S_ 1 1#1
  let main_v7 : IVec S_ 1 := (fun x v => Host.reduce IntOp.andi x v reducesTo_S512x64x5_S_d0_1_2 h_S_) main_v6 main_c_1
  let main_v8 : IVec S_ 1 := andi main_v3 main_v7
  main_v8
-- ==== Kernel.lean ====
abbrev S1024x512 : Shape := ⟨2, ![1024, 512]⟩
abbrev S512x64x5 : Shape := ⟨3, ![512, 64, 5]⟩
abbrev S512x320 : Shape := ⟨2, ![512, 320]⟩
abbrev S1024x320 : Shape := ⟨2, ![1024, 320]⟩
abbrev S256x512 : Shape := ⟨2, ![256, 512]⟩
abbrev S256x320 : Shape := ⟨2, ![256, 320]⟩
abbrev S1024x64x5 : Shape := ⟨3, ![1024, 64, 5]⟩
abbrev S1024x64 : Shape := ⟨2, ![1024, 64]⟩
abbrev S256x64x5 : Shape := ⟨3, ![256, 64, 5]⟩
abbrev S128x64x5 : Shape := ⟨3, ![128, 64, 5]⟩
abbrev S256x64 : Shape := ⟨2, ![256, 64]⟩
abbrev S256x128x64 : Shape := ⟨3, ![256, 128, 64]⟩
abbrev S256x64x1 : Shape := ⟨3, ![256, 64, 1]⟩
abbrev S128x64x1 : Shape := ⟨3, ![128, 64, 1]⟩
abbrev S128x64 : Shape := ⟨2, ![128, 64]⟩
abbrev S256x1x64 : Shape := ⟨3, ![256, 1, 64]⟩
abbrev S1x128x64 : Shape := ⟨3, ![1, 128, 64]⟩

abbrev nBuf : Space → Nat
  | .hbm => 6
  | .vmem => 12
  | .smem => 0
  | _ => 0

abbrev bufTy : (tb : Table) → Fin (tcTables nBuf tb) → BufTy
  | .hbm, ⟨0, _⟩ => ⟨S1024x512, .f32⟩
  | .hbm, ⟨1, _⟩ => ⟨S512x64x5, .f32⟩
  | .hbm, ⟨2, _⟩ => ⟨S512x320, .f32⟩
  | .hbm, ⟨3, _⟩ => ⟨S1024x320, .f32⟩
  | .hbm, ⟨4, _⟩ => ⟨S1024x64x5, .f32⟩
  | .hbm, ⟨5, _⟩ => ⟨S1024x64, .f32⟩
  | .local _ .vmem, ⟨0, _⟩ => ⟨S256x512, .f32⟩
  | .local _ .vmem, ⟨1, _⟩ => ⟨S256x512, .f32⟩
  | .local _ .vmem, ⟨2, _⟩ => ⟨S512x320, .f32⟩
  | .local _ .vmem, ⟨3, _⟩ => ⟨S256x320, .f32⟩
  | .local _ .vmem, ⟨4, _⟩ => ⟨S256x320, .f32⟩
  | .local _ .vmem, ⟨5, _⟩ => ⟨S256x64x5, .f32⟩
  | .local _ .vmem, ⟨6, _⟩ => ⟨S256x64x5, .f32⟩
  | .local _ .vmem, ⟨7, _⟩ => ⟨S128x64x5, .f32⟩
  | .local _ .vmem, ⟨8, _⟩ => ⟨S128x64x5, .f32⟩
  | .local _ .vmem, ⟨9, _⟩ => ⟨S256x64, .f32⟩
  | .local _ .vmem, ⟨10, _⟩ => ⟨S256x64, .f32⟩
  | .local _ .vmem, ⟨11, _⟩ => ⟨S256x64, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v72 : BitVec 1 := Scalar.cmpi .eq arg1 c7_i32
  let v73 : BitVec 32 := Scalar.extui v72
  let c0_i32_12 : BitVec 32 := 0#32
  let v74 : BitVec 1 := Scalar.cmpi .ne v73 c0_i32_12
  v74

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x64x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x64x5 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S512x64x5_S512x320 : S512x64x5.ShapeCasts S512x320
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  inb_S512x320_S512x320_0_0 : ∀ a, (![0, 0] : Fin 2 → Nat) a + S512x320.size a ≤ S512x320.size a
  h_S512x320 : 0 < S512x320.numel
  shapeCasts_S512x320_S512x320 : S512x320.ShapeCasts S512x320
  inb_S256x320_S256x320_0_0 : ∀ a, (![0, 0] : Fin 2 → Nat) a + S256x320.size a ≤ S256x320.size a
  h_S256x320 : 0 < S256x320.numel
  shapeCasts_S1024x320_S1024x64x5 : S1024x320.ShapeCasts S1024x64x5
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x64x5_S256x64x5_0_0_0 : ∀ a, (![0, 0, 0] : Fin 3 → Nat) a + S256x64x5.size a ≤ S256x64x5.size a
  h_S256x64x5 : 0 < S256x64x5.numel
  shapeCasts_S256x64x5_S256x64x5 : S256x64x5.ShapeCasts S256x64x5
  inb_S128x64x5_S128x64x5_0_0_0 : ∀ a, (![0, 0, 0] : Fin 3 → Nat) a + S128x64x5.size a ≤ S128x64x5.size a
  h_S128x64x5 : 0 < S128x64x5.numel
  shapeCasts_S128x64x5_S128x64x5 : S128x64x5.ShapeCasts S128x64x5
  slices_S256x64x5_o0_0_0_S256x64x1 : S256x64x5.Slices ![0, 0, 0] S256x64x1
  shapeCasts_S256x64x1_S256x64 : S256x64x1.ShapeCasts S256x64
  slices_S128x64x5_o0_0_0_S128x64x1 : S128x64x5.Slices ![0, 0, 0] S128x64x1
  shapeCasts_S128x64x1_S128x64 : S128x64x1.ShapeCasts S128x64
  shapeCasts_S256x64_S256x1x64 : S256x64.ShapeCasts S256x1x64
  shapeCasts_S128x64_S1x128x64 : S128x64.ShapeCasts S1x128x64
  broadcasts_S256x1x64_S256x128x64 : S256x1x64.Broadcasts S256x128x64
  broadcasts_S1x128x64_S256x128x64 : S1x128x64.Broadcasts S256x128x64
  slices_S256x64x5_o0_0_1_S256x64x1 : S256x64x5.Slices ![0, 0, 1] S256x64x1
  slices_S128x64x5_o0_0_1_S128x64x1 : S128x64x5.Slices ![0, 0, 1] S128x64x1
  slices_S256x64x5_o0_0_2_S256x64x1 : S256x64x5.Slices ![0, 0, 2] S256x64x1
  slices_S128x64x5_o0_0_2_S128x64x1 : S128x64x5.Slices ![0, 0, 2] S128x64x1
  slices_S256x64x5_o0_0_3_S256x64x1 : S256x64x5.Slices ![0, 0, 3] S256x64x1
  slices_S128x64x5_o0_0_3_S128x64x1 : S128x64x5.Slices ![0, 0, 3] S128x64x1
  slices_S256x64x5_o0_0_4_S256x64x1 : S256x64x5.Slices ![0, 0, 4] S256x64x1
  slices_S128x64x5_o0_0_4_S128x64x1 : S128x64x5.Slices ![0, 0, 4] S128x64x1
  reduces_S256x128x64_S256x64 : S256x128x64.Reduces [1] S256x64
  dot_S256x512_S512x320_S256x320_1_0_0_1_n_n_wf : DotDims.WF S256x512 S512x320 S256x320 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S1024x512.size a
  hwx0_0 : ∀ i : grid0.Coords, EltTy.bits .f32 = 32 ∨ (Rect.block (s := S1024x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x320.size a ≤ S512x320.size a
  hwx0_1 : ∀ i : grid0.Coords, EltTy.bits .f32 = 32 ∨ (Rect.block (s := S512x320) S512x320.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x320.size a ≤ S1024x320.size a
  hwx0_2 : ∀ i : grid0.Coords, EltTy.bits .f32 = 32 ∨ (Rect.block (s := S1024x320) S256x320.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x64x5.size a ≤ S1024x64x5.size a
  hwx1_0 : ∀ i : grid1.Coords, EltTy.bits .f32 = 32 ∨ (Rect.block (s := S1024x64x5) S256x64x5.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x64x5.size a ≤ S1024x64x5.size a
  hwx1_1 : ∀ i : grid1.Coords, EltTy.bits .f32 = 32 ∨ (Rect.block (s := S1024x64x5) S128x64x5.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S1024x64.size a
  hwx1_2 : ∀ i : grid1.Coords, EltTy.bits .f32 = 32 ∨ (Rect.block (s := S1024x64) S256x64.size (cc1_transform_2 i) (hinb1_2 i)).WholeWords (EltTy.packing .f32)

variable [Facts₀]

def dot_S256x512_S512x320_S256x320_1_0_0_1_n_n : DotDims S256x512 S512x320 S256x320 where
  lhsContracting := [1]
  rhsContracting := [0]
  lhsNonContracting := [0]
  rhsNonContracting := [1]
  lhsBatch := []
  rhsBatch := []
  wf := dot_S256x512_S512x320_S256x320_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x320.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x320.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S256x64x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x64x5.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S256x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S1024x512 : Shape := ⟨2, ![1024, 512]⟩
abbrev S512x64x5 : Shape := ⟨3, ![512, 64, 5]⟩
abbrev S512x320 : Shape := ⟨2, ![512, 320]⟩
abbrev S1024x320 : Shape := ⟨2, ![1024, 320]⟩
abbrev S1024x64x5 : Shape := ⟨3, ![1024, 64, 5]⟩
abbrev S_ : Shape := ⟨0, ![]⟩
abbrev S1024x1024x64 : Shape := ⟨3, ![1024, 1024, 64]⟩
abbrev S1024x64x1 : Shape := ⟨3, ![1024, 64, 1]⟩
abbrev S1024x64 : Shape := ⟨2, ![1024, 64]⟩
abbrev S1024x1x64 : Shape := ⟨3, ![1024, 1, 64]⟩
abbrev S1x1024x64 : Shape := ⟨3, ![1, 1024, 64]⟩

abbrev nBuf : Space → Nat
  | .hbm => 56
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x64x5, .f32⟩
  | .hbm, ⟨2, _⟩ => ⟨S512x320, .f32⟩
  | .hbm, ⟨3, _⟩ => ⟨S1024x320, .f32⟩
  | .hbm, ⟨4, _⟩ => ⟨S1024x64x5, .f32⟩
  | .hbm, ⟨5, _⟩ => ⟨S_, .f32⟩
  | .hbm, ⟨6, _⟩ => ⟨S1024x1024x64, .f32⟩
  | .hbm, ⟨7, _⟩ => ⟨S1024x64x1, .f32⟩
  | .hbm, ⟨8, _⟩ => ⟨S1024x64, .f32⟩
  | .hbm, ⟨9, _⟩ => ⟨S1024x1x64, .f32⟩
  | .hbm, ⟨10, _⟩ => ⟨S1x1024x64, .f32⟩
  | .hbm, ⟨11, _⟩ => ⟨S1024x1024x64, .f32⟩
  | .hbm, ⟨12, _⟩ => ⟨S1024x1024x64, .f32⟩
  | .hbm, ⟨13, _⟩ => ⟨S1024x1024x64, .f32⟩
  | .hbm, ⟨14, _⟩ => ⟨S1024x1024x64, .f32⟩
  | .hbm, ⟨15, _⟩ => ⟨S1024x1024x64, .f32⟩
  | .hbm, ⟨16, _⟩ => ⟨S1024x64x1, .f32⟩
  | .hbm, ⟨17, _⟩ => ⟨S1024x64, .f32⟩
  | .hbm, ⟨18, _⟩ => ⟨S1024x1x64, .f32⟩
  | .hbm, ⟨19, _⟩ => ⟨S1x1024x64, .f32⟩
  | .hbm, ⟨20, _⟩ => ⟨S1024x1024x64, .f32⟩
  | .hbm, ⟨21, _⟩ => ⟨S1024x1024x64, .f32⟩
  | .hbm, ⟨22, _⟩ => ⟨S1024x1024x64, .f32⟩
  | .hbm, ⟨23, _⟩ => ⟨S1024x1024x64, .f32⟩
  | .hbm, ⟨24, _⟩ => ⟨S1024x1024x64, .f32⟩
  | .hbm, ⟨25, _⟩ => ⟨S1024x64x1, .f32⟩
  | .hbm, ⟨26, _⟩ => ⟨S1024x64, .f32⟩
  | .hbm, ⟨27, _⟩ => ⟨S1024x1x64, .f32⟩
  | .hbm, ⟨28, _⟩ => ⟨S1x1024x64, .f32⟩
  | .hbm, ⟨29, _⟩ => ⟨S1024x1024x64, .f32⟩
  | .hbm, ⟨30, _⟩ => ⟨S1024x1024x64, .f32⟩
  | .hbm, ⟨31, _⟩ => ⟨S1024x1024x64, .f32⟩
  | .hbm, ⟨32, _⟩ => ⟨S1024x1024x64, .f32⟩
  | .hbm, ⟨33, _⟩ => ⟨S1024x1024x64, .f32⟩
  | .hbm, ⟨34, _⟩ => ⟨S1024x64x1, .f32⟩
  | .hbm, ⟨35, _⟩ => ⟨S1024x64, .f32⟩
  | .hbm, ⟨36, _⟩ => ⟨S1024x1x64, .f32⟩
  | .hbm, ⟨37, _⟩ => ⟨S1x1024x64, .f32⟩
  | .hbm, ⟨38, _⟩ => ⟨S1024x1024x64, .f32⟩
  | .hbm, ⟨39, _⟩ => ⟨S1024x1024x64, .f32⟩
  | .hbm, ⟨40, _⟩ => ⟨S1024x1024x64, .f32⟩
  | .hbm, ⟨41, _⟩ => ⟨S1024x1024x64, .f32⟩
  | .hbm, ⟨42, _⟩ => ⟨S1024x1024x64, .f32⟩
  | .hbm, ⟨43, _⟩ => ⟨S1024x64x1, .f32⟩
  | .hbm, ⟨44, _⟩ => ⟨S1024x64, .f32⟩
  | .hbm, ⟨45, _⟩ => ⟨S1024x1x64, .f32⟩
  | .hbm, ⟨46, _⟩ => ⟨S1x1024x64, .f32⟩
  | .hbm, ⟨47, _⟩ => ⟨S1024x1024x64, .f32⟩
  | .hbm, ⟨48, _⟩ => ⟨S1024x1024x64, .f32⟩
  | .hbm, ⟨49, _⟩ => ⟨S1024x1024x64, .f32⟩
  | .hbm, ⟨50, _⟩ => ⟨S1024x1024x64, .f32⟩
  | .hbm, ⟨51, _⟩ => ⟨S1024x1024x64, .f32⟩
  | .hbm, ⟨52, _⟩ => ⟨S1024x1024x64, .f32⟩
  | .hbm, ⟨53, _⟩ => ⟨S1024x1024x64, .f32⟩
  | .hbm, ⟨54, _⟩ => ⟨S_, .f32⟩
  | .hbm, ⟨55, _⟩ => ⟨S1024x64, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_cst_0 : Ref sig .tc := ⟨.hbm, 54, rfl⟩
abbrev main_v51 : Ref sig .tc := ⟨.hbm, 55, rfl⟩

abbrev nD : Nat := 1
abbrev τ : Topo := Topo.v7x

variable {F : FTy → Type} [FloatOps F]

class Facts₀ : Prop where
  shapeCasts_S512x64x5_S512x320 : S512x64x5.ShapeCasts S512x320
  shapeCasts_S1024x320_S1024x64x5 : S1024x320.ShapeCasts S1024x64x5
  bcast_S_S1024x1024x64 : S_.BroadcastsInDim S1024x1024x64 (![] : Fin 0 → Fin S1024x1024x64.rank)
  slices_S1024x64x5_S1024x64x1_0_0_0 : S1024x64x5.Slices ![0, 0, 0] S1024x64x1
  shapeCasts_S1024x64x1_S1024x64 : S1024x64x1.ShapeCasts S1024x64
  bcast_S1024x64_S1024x1x64_0_2 : S1024x64.BroadcastsInDim S1024x1x64 (![0, 2] : Fin 2 → Fin S1024x1x64.rank)
  bcast_S1024x64_S1x1024x64_1_2 : S1024x64.BroadcastsInDim S1x1024x64 (![1, 2] : Fin 2 → Fin S1x1024x64.rank)
  bcast_S1024x1x64_S1024x1024x64_0_1_2 : S1024x1x64.BroadcastsInDim S1024x1024x64 (![0, 1, 2] : Fin 3 → Fin S1024x1024x64.rank)
  bcast_S1x1024x64_S1024x1024x64_0_1_2 : S1x1024x64.BroadcastsInDim S1024x1024x64 (![0, 1, 2] : Fin 3 → Fin S1024x1024x64.rank)
  slices_S1024x64x5_S1024x64x1_0_0_1 : S1024x64x5.Slices ![0, 0, 1] S1024x64x1
  slices_S1024x64x5_S1024x64x1_0_0_2 : S1024x64x5.Slices ![0, 0, 2] S1024x64x1
  slices_S1024x64x5_S1024x64x1_0_0_3 : S1024x64x5.Slices ![0, 0, 3] S1024x64x1
  slices_S1024x64x5_S1024x64x1_0_0_4 : S1024x64x5.Slices ![0, 0, 4] S1024x64x1
  reducesTo_S1024x1024x64_S1024x64_d1 : S1024x1024x64.ReducesTo [1] S1024x64
  h_S_ : 0 < S_.numel
  dot_S1024x512_S512x320_S1024x320_1_0_0_1_n_n_wf : DotDims.WF S1024x512 S512x320 S1024x320 [1] [0] [0] [1] [] []

variable [Facts₀]

def dot_S1024x512_S512x320_S1024x320_1_0_0_1_n_n : DotDims S1024x512 S512x320 S1024x320 where
  lhsContracting := [1]
  rhsContracting := [0]
  lhsNonContracting := [0]
  rhsNonContracting := [1]
  lhsBatch := []
  rhsBatch := []
  wf := dot_S1024x512_S512x320_S1024x320_1_0_0_1_n_n_wf

class Facts : Prop extends Facts₀ where

variable [Facts]
-- ==== Proof.K.Region0.lean ====
/-
  Region 0 of the kernel program: the tiled matrix product. At grid point t the body reads the t-th block of 256 rows
  of x and the whole of the flattened T, and stores their product into the output window's staging buffer. Stated for
  any float instance F and at a parameter V, the contents of the core's buffers when the region is entered.
-/
import proofs.«124526_j31714038513724_1_alg».proof.Proof.Gen.Kernel.Launch
import proofs.«124526_j31714038513724_1_alg».proof.Proof.Gen.Kernel.Skeleton
import proofs.«124526_j31714038513724_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of region 0: the arrays as entered; after the body each input buffer still at its block and the
    output buffer at the product of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) (iblk0 V c 1 t) := by dsimp only [dat0]

/-! ## The input windows hold their blocks -/

/-- The zero offsets of a whole-buffer access, as a constant function. -/
theorem zero_off2 : (![0, 0] : Fin 2 → Nat) = fun _ => 0 :=
  funext fun a => by match a with | ⟨0, _⟩ => rfl | ⟨1, _⟩ => rfl

/-- The row block of x sits in window 0's current buffer at every point: the window is an input, never idle and
    uncut, and the body leaves the block where it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole of T sits in window 1's buffer at every point, although it is brought in at the first point only:
    its block index never moves, so what an earlier point left there is this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 0's current buffer at the proof data of this region: the row block of x. -/
theorem before0_0 (c : Dev nD) (t : Fin cfg0.N) (d) : (dat0 V c).before 0 t d = iblk0 V c 0 t :=
  before0_0_of V (dat0 V c) (A_eq0 V c 0) (after0_0 V c) t d

/-- Window 1's current buffer at the proof data of this region: the whole of T. -/
theorem before0_1 (c : Dev nD) (t : Fin cfg0.N) (d) : (dat0 V c).before 1 t d = iblk0 V c 1 t :=
  before0_1_of V (dat0 V c) (A_eq0 V c 1) (after0_1 V c) t d

/-! ## The body's triple -/

set_option maxHeartbeats 1000000 in
/-- The kernel on whole staging buffers: with the x block `x0` in the first and T as `x1` in the second, and the
    third at anything, it runs to the continuation with the two inputs as they were and the third at the product
    `k0_pay1 x0 x1`. The body also reads the third buffer before storing into it; that value is never used. The one
    store fills the whole buffer through the zero-offset rectangle of the buffer's own extents, so what is read back
    is the payload, and each input load through such a rectangle reads the contents. -/
theorem sound_kernel0 (c : Dev nD) (E : Set ℕ) (i : grid0.Coords)
    (arg1 : Memref sig .tc .vmem S256x512 .f32) (harg1 : arg1.IsWhole)
    (arg2 : Memref sig .tc .vmem S512x320 .f32) (harg2 : arg2.IsWhole)
    (arg3 : Memref sig .tc .vmem S256x320 .f32) (harg3 : arg3.IsWhole)
    (x0 : Vec F S256x512 .f32) (x1 : Vec F S512x320 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0_matmul_kernel i arg1 harg1 arg2 harg2 arg3 harg3) K := by
  simp only [cc0_matmul_kernel_eq_skeleton]; unfold cc0_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _
    (fun y => ⟨_, List.mem_singleton_self _, View.mem_set_unit_zero zero_off2 inb_S256x320_S256x320_0_0 y⟩)]
  rw [View.canon_unit_zero zero_off2]
  simp only [View.readAt_eq_ld, View.ld_unit_zero (S := S256x512) zero_off2, View.ld_unit_zero (S := S512x320) zero_off2]

/-! ## The body obligation, at a generic point -/

/-- What the body is called with at point `t`: the invariant, what the core owes, and the three windows' current
    buffers, the inputs at their blocks and the output at whatever it held. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same invariant and debt, the inputs unchanged, the output at the product. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: both input buffers hold their blocks, so the kernel's triple applies at those blocks;
    the invariant and the debt pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0 at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Region 1 of the kernel program: the all-pairs pass. The grid is 4 row tiles i by 8 column tiles j; point t = 8 i + j.
  A scratch accumulator is carried from point to point: it is zeroed at j = 0, at every point the body adds to it the
  sum over the 128 columns of tile j of exp (0 - L1 distance), and at j = 7 it is copied into the output window's
  staging buffer, which is written back there and idle elsewhere. Both input windows read one array, so each holds
  half of its share. Stated for any float instance F and at a parameter V, the buffers' contents at the region's entry.
-/
import proofs.«124526_j31714038513724_1_alg».proof.Proof.Gen.Kernel.Launch
import proofs.«124526_j31714038513724_1_alg».proof.Proof.Gen.Kernel.Skeleton
import proofs.«124526_j31714038513724_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's update of the accumulator: acc plus the column sums of exp (0 - distance) between the row block mi
    and the column block mj, as the body's payloads compute it. -/
def step1 (acc : Vec F S256x64 .f32) (mi : Vec F S256x64x5 .f32) (mj : Vec F S128x64x5 .f32) : Vec F S256x64 .f32 :=
  k1_pay1 (k1_pay3 mi) (k1_pay4 mj) (k1_pay5 mi mj) (k1_pay6 mj) (k1_pay7 mi) acc

/-- The accumulator after point n: restarted from zero at the first column tile of each row tile. -/
def accAt (c : Dev nD) : (n : ℕ) → n < cfg1.N → Vec F S256x64 .f32
  | 0, h => step1 (k1_pay2 (F := F)) (iblk1 V c 0 ⟨0, h⟩) (iblk1 V c 1 ⟨0, h⟩)
  | n + 1, h => step1 (if (n + 1) % 8 = 0 then (k1_pay2 (F := F)) else accAt c n (Nat.lt_of_succ_lt h))
      (iblk1 V c 0 ⟨n + 1, h⟩) (iblk1 V c 1 ⟨n + 1, h⟩)

theorem accAt_first (c : Dev nD) (t : Fin cfg1.N) (h : t.val % 8 = 0) :
    accAt V c t.val t.isLt = step1 (k1_pay2 (F := F)) (iblk1 V c 0 t) (iblk1 V c 1 t) := by
  obtain ⟨n, hn⟩ := t
  cases n with
  | zero => rfl
  | succ n => exact congrArg (fun a => step1 a _ _) (if_pos h)

theorem accAt_next (c : Dev nD) (t : Fin cfg1.N) (h : ¬ t.val % 8 = 0) :
    accAt V c t.val t.isLt = step1 (accAt V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact congrArg (fun a => step1 a _ _) (if_neg h)

/-- The scratch accumulator, a whole scoped buffer of the kernel's own. -/
abbrev scM1 : Memref sig .tc .vmem S256x64 .f32 := Memref.whole cc1_scratch0

/-- The scoped buffers that belong to the other pallas_call, each whole at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The region invariant before position n: at the start the scoped rest at anything and the generator register;
    afterwards the scratch at what the point before left in it. -/
def Phi1 (c : Dev nD) : (n : ℕ) → n ≤ cfg1.N → sProp 𝕄
  | 0, _ => Pipeline.ΦA spec1 c
  | n + 1, hn => iprop(owns (c : Thread nD τ) scM1 fullShare (accAt V c n hn) ∗ others1 (F := F) c ∗ (∃ r, prngReg c r))

/-- The proof data of region 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt V c t.val t.isLt
  Φ t := Phi1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt V c t.val t.isLt := by dsimp only [dat1]

/-! ## The two conditions of the body, in closed form over the grid -/

/-- The body's first conditional: the column tile is the first of its row tile. -/
abbrev cond1_0 (i : grid1.Coords) : Prop :=
  (Scalar.cmpi .ne (Scalar.extui (Scalar.cmpi .eq (BitVec.ofNat 32 (i 1).val) 0#32)) 0#32) = 1#1
/-- It holds at the points t with t % 8 = 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- The body's second conditional: the column tile is the last of its row tile. -/
abbrev cond1_1 (i : grid1.Coords) : Prop := k1_cond2 i = 1#1
/-- It holds at the points t with t % 8 = 7. -/
theorem hcond1_1 : ∀ t : Fin cfg1.N, cond1_1 (grid1.coords t) ↔ t.val % 8 = 7 :=
  (by decide +kernel : ∀ t : Fin grid1.N, cond1_1 (grid1.coords t) ↔ t.val % 8 = 7)

/-- The two input windows are live at every point. -/
theorem liveAt1_0 : ∀ t : Fin cfg1.N, cfg1.idle 0 (grid1.coords t) = false := by decide +kernel
theorem liveAt1_1 : ∀ t : Fin cfg1.N, cfg1.idle 1 (grid1.coords t) = false := by decide +kernel
/-- Off the last column tile the output window is idle and is not written back; on it, it is live. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## One point of the body, case by case, on any whole buffers -/

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- The first column tile of a row tile: whatever the accumulator held, it is zeroed and left at one step from zero;
    the output buffer is not touched. -/
theorem runFirst (c : Dev nD) (i : grid1.Coords)
    (a2 : Memref sig .tc .vmem S256x64x5 .f32) (h2 : a2.IsWhole) (a3 : Memref sig .tc .vmem S128x64x5 .f32) (h3 : a3.IsWhole)
    (a4 : Memref sig .tc .vmem S256x64 .f32) (h4 : a4.IsWhole) (a5 : Memref sig .tc .vmem S256x64 .f32) (h5 : a5.IsWhole)
    (hc0 : cond1_0 i) (hc1 : ¬cond1_1 i)
    (mi : Vec F S256x64x5 .f32) (mj : Vec F S128x64x5 .f32) (xo : Vec F S256x64 .f32) (E : Set ℕ) (K : PUnit → sProp 𝕄) :
    iprop(owns (c : Thread nD τ) a2 fullShare mi ∗ owns (c : Thread nD τ) a3 fullShare mj ∗ owns (c : Thread nD τ) a4 fullShare xo
        ∗ (∃ d, owns (c : Thread nD τ) a5 fullShare d)
        ∗ (iprop(owns (c : Thread nD τ) a2 fullShare mi ∗ owns (c : Thread nD τ) a3 fullShare mj ∗ owns (c : Thread nD τ) a4 fullShare xo
            ∗ owns (c : Thread nD τ) a5 fullShare (step1 (k1_pay2 (F := F)) mi mj)) -∗ K ⟨⟩))
      ⊢ wp frame (wpE (defs₀ (F := F)) Variants.none c none) E (cc1_cdist_kernel i a2 h2 a3 h3 a4 h4 a5 h5) K := by
  simp only [cc1_cdist_kernel_eq_skeleton]; unfold cc1_cdist_kernel_skel
  unfold owns
  iintro ⟨⟨%f0, %hf0, H0⟩, ⟨%f1, %hf1, H1⟩, ⟨%f2, %hf2, H2⟩, ⟨%ds, %fs, -, HS⟩, Hk⟩
  obtain rfl := h2.eq_unread hf0; obtain rfl := h3.eq_unread hf1; obtain rfl := h4.eq_unread hf2
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  iexists _; isplitr
  swap; · iexact HS
  ipureintro
  sl_unfold_words
  rw [View.read_writes_eq_canon _ _ _ (fun y => ⟨_, List.mem_cons_self .., View.mem_set_unit_zero hz2 inb_S256x64_S256x64_0_0 y⟩)]
  rw [View.canon_cons_unit_zero (S := S256x64) hz2]
  unfold step1
  simp only [View.readAt_eq_ld, h2.read_unread, h3.read_unread, View.ld_unit_zero (S := S256x64) hz2,
    View.ld_unit_zero (S := S256x64x5) hz3, View.ld_unit_zero (S := S128x64x5) hz3, View.readCov_unit_zero (S := S256x64) _ hz2]

set_option maxHeartbeats 1000000 in
/-- A middle column tile: the accumulator found at acc is left at one more step; the output buffer is not touched. -/
theorem runMid (c : Dev nD) (i : grid1.Coords)
    (a2 : Memref sig .tc .vmem S256x64x5 .f32) (h2 : a2.IsWhole) (a3 : Memref sig .tc .vmem S128x64x5 .f32) (h3 : a3.IsWhole)
    (a4 : Memref sig .tc .vmem S256x64 .f32) (h4 : a4.IsWhole) (a5 : Memref sig .tc .vmem S256x64 .f32) (h5 : a5.IsWhole)
    (hc0 : ¬cond1_0 i) (hc1 : ¬cond1_1 i)
    (mi : Vec F S256x64x5 .f32) (mj : Vec F S128x64x5 .f32) (acc xo : Vec F S256x64 .f32) (E : Set ℕ) (K : PUnit → sProp 𝕄) :
    iprop(owns (c : Thread nD τ) a2 fullShare mi ∗ owns (c : Thread nD τ) a3 fullShare mj ∗ owns (c : Thread nD τ) a4 fullShare xo
        ∗ owns (c : Thread nD τ) a5 fullShare acc
        ∗ (iprop(owns (c : Thread nD τ) a2 fullShare mi ∗ owns (c : Thread nD τ) a3 fullShare mj ∗ owns (c : Thread nD τ) a4 fullShare xo
            ∗ owns (c : Thread nD τ) a5 fullShare (step1 acc mi mj)) -∗ K ⟨⟩))
      ⊢ wp frame (wpE (defs₀ (F := F)) Variants.none c none) E (cc1_cdist_kernel i a2 h2 a3 h3 a4 h4 a5 h5) K := by
  simp only [cc1_cdist_kernel_eq_skeleton]; unfold cc1_cdist_kernel_skel
  unfold owns
  iintro ⟨⟨%f0, %hf0, H0⟩, ⟨%f1, %hf1, H1⟩, ⟨%f2, %hf2, H2⟩, ⟨%fs, %hfs, HS⟩, Hk⟩
  obtain rfl := h2.eq_unread hf0; obtain rfl := h3.eq_unread hf1; obtain rfl := h4.eq_unread hf2; obtain rfl := h5.eq_unread hfs
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  iexists _; isplitr
  swap; · iexact HS
  ipureintro
  sl_unfold_words
  rw [View.read_writes_eq_canon _ _ _ (fun y => ⟨_, List.mem_cons_self .., View.mem_set_unit_zero hz2 inb_S256x64_S256x64_0_0 y⟩)]
  rw [View.canon_cons_unit_zero (S := S256x64) hz2]
  unfold step1
  simp only [View.readAt_eq_ld, h2.read_unread, h3.read_unread, h5.read_unread, View.ld_unit_zero (S := S256x64) hz2,
    View.ld_unit_zero (S := S256x64x5) hz3, View.ld_unit_zero (S := S128x64x5) hz3, View.readCov_unit_zero (S := S256x64) _ hz2]

set_option maxHeartbeats 1000000 in
/-- The last column tile of a row tile: the accumulator found at acc is left at one more step, and the output buffer,
    whatever it held, at the same. -/
theorem runLast (c : Dev nD) (i : grid1.Coords)
    (a2 : Memref sig .tc .vmem S256x64x5 .f32) (h2 : a2.IsWhole) (a3 : Memref sig .tc .vmem S128x64x5 .f32) (h3 : a3.IsWhole)
    (a4 : Memref sig .tc .vmem S256x64 .f32) (h4 : a4.IsWhole) (a5 : Memref sig .tc .vmem S256x64 .f32) (h5 : a5.IsWhole)
    (hc0 : ¬cond1_0 i) (hc1 : cond1_1 i)
    (mi : Vec F S256x64x5 .f32) (mj : Vec F S128x64x5 .f32) (acc : Vec F S256x64 .f32) (E : Set ℕ) (K : PUnit → sProp 𝕄) :
    iprop(owns (c : Thread nD τ) a2 fullShare mi ∗ owns (c : Thread nD τ) a3 fullShare mj ∗ (∃ d, owns (c : Thread nD τ) a4 fullShare d)
        ∗ owns (c : Thread nD τ) a5 fullShare acc
        ∗ (iprop(owns (c : Thread nD τ) a2 fullShare mi ∗ owns (c : Thread nD τ) a3 fullShare mj
            ∗ owns (c : Thread nD τ) a4 fullShare (step1 acc mi mj)
            ∗ owns (c : Thread nD τ) a5 fullShare (step1 acc mi mj)) -∗ K ⟨⟩))
      ⊢ wp frame (wpE (defs₀ (F := F)) Variants.none c none) E (cc1_cdist_kernel i a2 h2 a3 h3 a4 h4 a5 h5) K := by
  simp only [cc1_cdist_kernel_eq_skeleton]; unfold cc1_cdist_kernel_skel
  unfold owns
  iintro ⟨⟨%f0, %hf0, H0⟩, ⟨%f1, %hf1, H1⟩, ⟨%d2, %f2, -, H2⟩, ⟨%fs, %hfs, HS⟩, Hk⟩
  obtain rfl := h2.eq_unread hf0; obtain rfl := h3.eq_unread hf1; obtain rfl := h5.eq_unread hfs
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr
    swap; · iexact H2
    ipureintro
    sl_unfold_words
    rw [View.read_writes_eq_canon _ _ _ (fun y => ⟨_, List.mem_cons_self .., View.mem_set_unit_zero hz2 inb_S256x64_S256x64_0_0 y⟩)]
    rw [View.canon_cons_unit_zero (S := S256x64) hz2]
    unfold step1
    simp only [View.readAt_eq_ld, h2.read_unread, h3.read_unread, h5.read_unread, View.ld_unit_zero (S := S256x64) hz2,
      View.ld_unit_zero (S := S256x64x5) hz3, View.ld_unit_zero (S := S128x64x5) hz3, View.readCov_unit_zero (S := S256x64) _ hz2]
  iexists _; isplitr
  swap; · iexact HS
  ipureintro
  sl_unfold_words
  rw [View.read_writes_eq_canon _ _ _ (fun y => ⟨_, List.mem_cons_self .., View.mem_set_unit_zero hz2 inb_S256x64_S256x64_0_0 y⟩)]
  rw [View.canon_cons_unit_zero (S := S256x64) hz2]
  unfold step1
  simp only [View.readAt_eq_ld, h2.read_unread, h3.read_unread, h5.read_unread, View.ld_unit_zero (S := S256x64) hz2,
    View.ld_unit_zero (S := S256x64x5) hz3, View.ld_unit_zero (S := S128x64x5) hz3, View.readCov_unit_zero (S := S256x64) _ hz2]

/-! ## The invariant, position by position -/

theorem Phi1_zero (c : Dev nD) (n : ℕ) (h : n ≤ cfg1.N) (hz : n = 0) : Phi1 V c n h = Pipeline.ΦA spec1 c := by
  subst hz; rfl

/-- After point n: the accumulator at that point's value. -/
theorem Phi1_succ (c : Dev nD) (n : ℕ) (hn : n < cfg1.N) :
    Phi1 V c (n + 1) hn = iprop(owns (c : Thread nD τ) scM1 fullShare (accAt V c n hn) ∗ others1 (F := F) c ∗ (∃ r, prngReg c r)) := rfl

/-- Before a point that is not the first: the accumulator at what the point before left. -/
theorem Phi1_pos (c : Dev nD) (n : ℕ) (h : n ≤ cfg1.N) (hz : n ≠ 0) :
    Phi1 V c n h = iprop(owns (c : Thread nD τ) scM1 fullShare (accAt V c (n - 1) (by omega)) ∗ others1 (F := F) c ∗ (∃ r, prngReg c r)) := by
  cases n with
  | zero => exact absurd rfl hz
  | succ n => rfl

theorem Phi1_castSucc (c : Dev nD) (t : Fin cfg1.N) :
    (dat1 V c).Φ t.castSucc = Phi1 V c t.val (Nat.le_of_lt t.isLt) := by
  dsimp only [dat1]; simp only [Fin.coe_castSucc]

/-- The class invariant spelled out: the other call's five staging buffers and the accumulator, each at some
    contents, and the generator register. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ d, owns (c : Thread nD τ) scM1 fullShare d)) ∗ (∃ r, prngReg c r)) := by
  unfold Pipeline.ΦA; rw [scopedRest1_eq]; simp only [scM1, owns_whole]; try rfl

/-! ## What the body finds in the input windows -/

/-- Each input window's current buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body obligation at a generic point -/

/-- Each window's current staging buffer at point t, and its wholeness. -/
abbrev ms1_0 (t : Fin cfg1.N) : Memref sig .tc .vmem S256x64x5 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x64x5 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x64 .f32 := win1_2.stage (cfg1.slots t 2)
abbrev hs1_2 (t : Fin cfg1.N) : (ms1_2 t).IsWhole := hstage1_2 ((cfg1.slots t 2).cast nbuf1_2)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 4800000 in
/-- The body at any point, by the residue of t modulo 8: 0, the accumulator restarts; 7, the output buffer takes the
    accumulator's value; otherwise only the accumulator moves. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [accAt_first V c t h0]
    by_cases hz : t.val = 0
    · rw [Phi1_castSucc V c t, Phi1_zero V c _ _ hz, PhiA1_eq]
      unfold others1
      iintro ⟨⟨⟨HA, HB, HC, HD, HE, HS⟩, Hg⟩, Ho, ⟨%d0, H0⟩, ⟨%d1, H1⟩, ⟨%d2, H2⟩⟩
      iapply (runFirst c (grid1.coords t) (ms1_0 t) (hs1_0 t) (ms1_1 t) (hs1_1 t) (ms1_2 t) (hs1_2 t) scM1 (Memref.isWhole_whole _)
        ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS]; · iexact HS
      iintro ⟨H0, H1, H2, HS⟩
      isplitl [HS HA HB HC HD HE Hg]
      · isplitl [HS]; · iexact HS
        isplitl [HA HB HC HD HE]
        · isplitl [HA]; · iexact HA
          isplitl [HB]; · iexact HB
          isplitl [HC]; · iexact HC
          isplitl [HD]; · iexact HD
          iexact HE
        iexact Hg
      isplitl [Ho]; · iexact Ho
      isplitl [H0]; · iexact H0
      isplitl [H1]; · iexact H1
      iexists _; iexact H2
    · rw [Phi1_castSucc V c t, Phi1_pos V c _ _ hz]
      iintro ⟨⟨HS, Hoth, Hg⟩, Ho, ⟨%d0, H0⟩, ⟨%d1, H1⟩, ⟨%d2, H2⟩⟩
      iapply (runFirst c (grid1.coords t) (ms1_0 t) (hs1_0 t) (ms1_1 t) (hs1_1 t) (ms1_2 t) (hs1_2 t) scM1 (Memref.isWhole_whole _)
        ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS]; · iexists _; iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexists _; iexact H2
  · have hz : t.val ≠ 0 := fun h => h0 (by rw [h])
    rw [Phi1_castSucc V c t, Phi1_pos V c _ _ hz]
    rw [accAt_next V c t h0]
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [accAt_next V c t h0]
      iintro ⟨⟨HS, Hoth, Hg⟩, Ho, ⟨%d0, H0⟩, ⟨%d1, H1⟩, ⟨%d2, H2⟩⟩
      iapply (runLast c (grid1.coords t) (ms1_0 t) (hs1_0 t) (ms1_1 t) (hs1_1 t) (ms1_2 t) (hs1_2 t) scM1 (Memref.isWhole_whole _)
        (fun h => h0 ((hcond1_0 t).mp h)) ((hcond1_1 t).mpr h1) (iblk1 V c 0 t) (iblk1 V c 1 t)
        (accAt V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexact H2
    · rw [Dat.leavesExact_idle (dat1 V c) 2 t (idleAt1_2 t (fun h => h1 ((hcond1_1 t).mp h))) (noFlush1_2 t (fun h => h1 ((hcond1_1 t).mp h)))]
      iintro ⟨⟨HS, Hoth, Hg⟩, Ho, ⟨%d0, H0⟩, ⟨%d1, H1⟩, ⟨%d2, H2⟩⟩
      iapply (runMid c (grid1.coords t) (ms1_0 t) (hs1_0 t) (ms1_1 t) (hs1_1 t) (ms1_2 t) (hs1_2 t) scM1 (Memref.isWhole_whole _)
        (fun h => h0 ((hcond1_0 t).mp h)) (fun h => h1 ((hcond1_1 t).mp h)) (iblk1 V c 0 t) (iblk1 V c 1 t)
        (accAt V c (t.val - 1) (Nat.lt_of_le_of_lt (Nat.sub_le _ _) t.isLt)) _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexists _; iexact H2

/-- The body obligation of region 1 at every point. -/
theorem body_obligation1 (c : Dev nD) : BodyObligation (dat1 (F := F) V c) (defs₀ (F := F)) Variants.none () Set.univ := fun t => by
  rw [bigSep_W1, bigSep_W1]
  exact sound_body1 V c t

/-- The class invariant makes the first point's. -/
theorem hin1 (c : Dev nD) : (Pipeline.ΦA spec1 c : sProp 𝕄) ⊢ (dat1 V c).Φ 0 := by
  rw [show (dat1 V c).Φ 0 = Phi1 V c 0 (Nat.zero_le _) from rfl, Phi1_zero V c 0 _ rfl]
  try exact Idealize.SL.BI.Entails.refl _

/-- After any point but the first the invariant gives the class invariant back: the accumulator's value is forgotten. -/
theorem Phi1_out (c : Dev nD) (t : Fin (cfg1.N + 1)) (ht : t.val ≠ 0) : (dat1 V c).Φ t ⊢ (Pipeline.ΦA spec1 c : sProp 𝕄) := by
  rw [show (dat1 V c).Φ t = Phi1 V c t.val (Nat.le_of_lt_succ t.isLt) from rfl, Phi1_pos V c _ _ ht, PhiA1_eq]
  unfold others1
  iintro ⟨HS, ⟨HA, HB, HC, HD, HE⟩, Hg⟩
  isplitl [HS HA HB HC HD HE]
  · isplitl [HA]; · iexact HA
    isplitl [HB]; · iexact HB
    isplitl [HC]; · iexact HC
    isplitl [HD]; · iexact HD
    isplitl [HE]; · iexact HE
    iexists _; iexact HS
  iexact Hg

/-- The last point's invariant gives the class invariant back. -/
theorem hout1 (c : Dev nD) : (dat1 V c).Φ (Fin.last cfg1.N) ⊢ (Pipeline.ΦA spec1 c : sProp 𝕄) :=
  Phi1_out V c _ (by rw [Fin.val_last]; have : cfg1.N = 32 := N_1; omega)

end Cert.Kernel.Hand

end
-- ==== Proof.K.Shared1.lean ====
/-
  Region 1's two input windows read ONE array. At the region's entry that array's buffer, held whole at the full share,
  is dealt to the two windows as the left and the right half of the share; at the exit the two halves, still at the
  entry contents (an input array is never written), make the full share again, and the output window's array holds what
  the write-backs left.
-/
import proofs.«124526_j31714038513724_1_alg».proof.Proof.Gen.Kernel.Launch
import proofs.«124526_j31714038513724_1_alg».proof.Proof.Gen.Kernel.Skeleton
import proofs.«124526_j31714038513724_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Rules.PointsTo

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The buffers behind region 1's arrays: the shared input array and the output array. -/
theorem arrRef_image1 : Finset.univ.image (Pipeline.arrRef spec1) = {main_v2, main_v3} := by decide

/-- The distinct buffers behind region 1's arrays, one by one. -/
theorem arrBufs1_eq (c : Dev nD) (V : (b : Ref sig .tc) → Buf (Elt F) ((c : Thread nD τ).loc b)) :
    (Pipeline.arrBufs spec1 c V : sProp 𝕄)
      = iprop((((c : Thread nD τ).loc main_v2) ↦{fullShare} V main_v2) ∗ (((c : Thread nD τ).loc main_v3) ↦{fullShare} V main_v3)) := by
  unfold Pipeline.arrBufs
  rw [arrRef_image1, bigSep_insert (by decide), bigSep_singleton]
  rfl

/-- Region 1's arrays, one by one: the shared array at the left and at the right half of the share, the output whole. -/
theorem arrays1_eq (c : Dev nD) (dat : Dat τ (Elt F) Unit ℕ (UR sig nD τ) ℕ cfg1 c)
    (hq0 : dat.q 0 = fullShare.left) (hq1 : dat.q 1 = fullShare.right)
    (G : (w : Fin cfg1.W) → Buf (Elt F) ((cfg1.win w).arr.view.loc (c : Thread nD τ))) :
    (dat.arrays G : sProp 𝕄)
      = iprop((((c : Thread nD τ).loc main_v2) ↦{fullShare.left} G 0) ∗ (((c : Thread nD τ).loc main_v2) ↦{fullShare.right} G 1)
          ∗ (((c : Thread nD τ).loc main_v3) ↦{fullShare} G 2)) := by
  have h0 : dat.share 0 = fullShare.left := hq0
  have h1 : dat.share 1 = fullShare.right := hq1
  have h2 : dat.share 2 = fullShare := rfl
  unfold Dat.arrays
  rw [bigSep_W1, (arr_whole1 0).set_eq_univ, (arr_whole1 2).set_eq_univ, h0, h1, h2]

/-- A core's unscoped buffers: the buffers behind region 1's arrays and the rest. -/
theorem unscopedBufs1_eq (c : Dev nD) (V : (b : Ref sig .tc) → Buf (Elt F) ((c : Thread nD τ).loc b)) :
    (unscopedBufs c V : sProp 𝕄) = iprop(Pipeline.arrBufs spec1 c V ∗ Pipeline.unscopedRest spec1 c V) :=
  Pipeline.unscopedBufs_split₀ cfgs 1 winFacts₀1.arr_unscoped c V

/-- ENTRY: a core's unscoped buffers at contents Vc are region 1's arrays at any proof data's entry contents that read
    them off Vc, the shared array split between the two input windows, beside the unscoped buffers no window reads. -/
theorem arrays1_of_unscopedBufs (c : Dev nD) (Vc : (b : Ref sig .tc) → Buf (Elt F) ((c : Thread nD τ).loc b))
    (dat : Dat τ (Elt F) Unit ℕ (UR sig nD τ) ℕ cfg1 c)
    (hq0 : dat.q 0 = fullShare.left) (hq1 : dat.q 1 = fullShare.right)
    (hA : ∀ w, dat.A w = Vc (Pipeline.arrRef spec1 w)) :
    (unscopedBufs c Vc : sProp 𝕄) ⊢ iprop(dat.arrays (dat.arrAt · 0) ∗ Pipeline.unscopedRest spec1 c Vc) := by
  rw [unscopedBufs1_eq, arrBufs1_eq, arrays1_eq c dat hq0 hq1]
  refine sep_mono ?_ .rfl
  -- at the entry every window's array holds what Vc has at its buffer
  rw [show dat.arrAt 0 0 = Vc main_v2 from hA 0, show dat.arrAt 1 0 = Vc main_v2 from hA 1, show dat.arrAt 2 0 = Vc main_v3 from hA 2]
  iintro ⟨H2, H3⟩
  -- the shared array's full share is its left half beside its right half
  ihave H := (pointsTo_share (PosShare.mem_left_op_right fullShare)).1 $$ H2
  icases H with ⟨Hl, Hr⟩
  isplitl [Hl]; · iexact Hl
  isplitl [Hr] <;> iassumption

/-- EXIT: the arrays at their final contents beside the unscoped rest at Vc make the core's unscoped buffers at any
    contents Vc' that agree with Vc off the output's array and hold the output's final contents there. -/
theorem unscopedBufs_of_arrays1 (c : Dev nD) (Vc Vc' : (b : Ref sig .tc) → Buf (Elt F) ((c : Thread nD τ).loc b))
    (dat : Dat τ (Elt F) Unit ℕ (UR sig nD τ) ℕ cfg1 c)
    (hq0 : dat.q 0 = fullShare.left) (hq1 : dat.q 1 = fullShare.right)
    (hA : ∀ w, dat.A w = Vc (Pipeline.arrRef spec1 w))
    (hF : dat.arrAt 2 cfg1.N = Vc' main_v3) (hrest : ∀ b : Ref sig .tc, b ≠ main_v3 → Vc' b = Vc b) :
    iprop(dat.arrays (dat.arrAt · cfg1.N) ∗ Pipeline.unscopedRest spec1 c Vc) ⊢ (unscopedBufs c Vc' : sProp 𝕄) := by
  -- an input array is never written, and Vc' agrees with Vc at the shared array's buffer
  have e0 : dat.arrAt 0 cfg1.N = Vc' main_v2 := by
    rw [dat.arrAt_in 0 rfl, hA 0]; exact (hrest main_v2 (by decide)).symm
  have e1 : dat.arrAt 1 cfg1.N = Vc' main_v2 := by
    rw [dat.arrAt_in 1 rfl, hA 1]; exact (hrest main_v2 (by decide)).symm
  rw [unscopedBufs1_eq, arrBufs1_eq, arrays1_eq c dat hq0 hq1]
  refine sep_mono ?_ (Entails.of_eq ?_)
  · rw [e0, e1, hF]
    iintro ⟨Hl, Hr, H3⟩
    isplitl [Hl Hr]
    · -- the two halves, at the same contents, make the full share again
      iapply (pointsTo_share (PosShare.mem_left_op_right fullShare)).2
      isplitl [Hl] <;> iassumption
    · iexact H3
  · -- no buffer of the rest is the output's array
    unfold Pipeline.unscopedRest
    exact bigSep_congr fun b hb => by
      rw [hrest b fun h => (Finset.mem_sdiff.mp hb).2 (h ▸ Finset.mem_image.mpr ⟨2, Finset.mem_univ _, rfl⟩)]

end Cert.Kernel.Hand

end
-- ==== Proof.K.Run.lean ====
/-
  The run of the kernel program: host reshape, region 0 (the matrix product), host reshape, region 1 (the all-pairs
  pass), as four segments entered one from the other. Every weakly fair execution terminates; the argument arrays end
  as launched and the result array ends at what region 1's write-backs leave, region 1 having been entered from the
  reshape of what region 0's write-backs leave. Stated for any float instance F.
-/
import proofs.«124526_j31714038513724_1_alg».proof.Proof.K.Region0
import proofs.«124526_j31714038513724_1_alg».proof.Proof.K.Region1
import proofs.«124526_j31714038513724_1_alg».proof.Proof.K.Shared1
import proofs.«124526_j31714038513724_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The buffers' contents when region 0 is entered: the launch memory after the first host reshape. -/
abbrev Vr1 (c : Dev nD) (b : Ref sig .tc) : Buf (Elt F) ((c : Thread nD τ).loc b) := Gen.V1 m c (Proc.devRef .tc b)

/-- Region 0's share of what the regions leave: its product in main_v1, read off the entry contents elsewhere. -/
def outsProd (m : (ℓ : Loc nD τ sig) → Buf (Elt F) ℓ) : Gen.Outs (F := F) := fun _ r c =>
  Function.update (Vr1 m c) main_v1 ((dat0 (Vr1 m) c).arrAt 2 cfg0.N) r

/-- The buffers' contents when region 1 is entered, written over region 0's product alone. -/
abbrev VrMid (c : Dev nD) (b : Ref sig .tc) : Buf (Elt F) ((c : Thread nD τ).loc b) := Gen.V3 m (outsProd m) c (Proc.devRef .tc b)

/-- What the regions leave in the arrays they write: region 0 its product in main_v1, region 1 its sums in main_v3. -/
def outsOf (m : (ℓ : Loc nD τ sig) → Buf (Elt F) ℓ) : Gen.Outs (F := F) := fun n r c =>
  Function.update (fun r' => outsProd m n r' c) main_v3 ((dat1 (VrMid m) c).arrAt 2 cfg1.N) r

/-- The buffers' contents when region 1 is entered. -/
abbrev Vr3 (c : Dev nD) (b : Ref sig .tc) : Buf (Elt F) ((c : Thread nD τ).loc b) := Gen.V3 m (outsOf m) c (Proc.devRef .tc b)

theorem outsProd_2 (c : Dev nD) : outsProd m 2 main_v1 c = (dat0 (Vr1 m) c).arrAt 2 cfg0.N := by
  unfold outsProd; exact Function.update_self ..

theorem outsOf_2 (c : Dev nD) : outsOf m 2 main_v1 c = (dat0 (Vr1 m) c).arrAt 2 cfg0.N := by
  unfold outsOf
  rw [Function.update_of_ne (by decide : (main_v1 : Ref sig .tc) ≠ main_v3)]
  exact outsProd_2 m c

/-- Region 1 is entered from the same contents whichever of the two families is read: the second host reshape reads
    the families at region 0's product alone. -/
theorem mid_eq (c : Dev nD) : Gen.V3 m (outsOf m) c = Gen.V3 m (outsProd m) c :=
  congrArg (fun v => StableHlo.after hostOps1 (Function.update (Gen.V1 m c) (Proc.devRef .tc main_v1) v))
    ((outsOf_2 m c).trans (outsProd_2 m c).symm)

theorem Vr3_eq : Vr3 m = VrMid m := by
  funext c b; exact congrFun (mid_eq m c) (Proc.devRef .tc b)

theorem outsOf_4 (c : Dev nD) : outsOf m 4 main_v3 c = (dat1 (Vr3 m) c).arrAt 2 cfg1.N := by
  rw [Vr3_eq]; unfold outsOf; exact Function.update_self ..

/-! ## The buffers' contents at the regions' exits, read at the TensorCore's references -/

/-- The buffers' contents when region 0 is left. -/
abbrev Vr2 (c : Dev nD) (b : Ref sig .tc) : Buf (Elt F) ((c : Thread nD τ).loc b) := Gen.V2 m (outsOf m) c (Proc.devRef .tc b)
/-- The buffers' contents when region 1 is left. -/
abbrev Vr4 (c : Dev nD) (b : Ref sig .tc) : Buf (Elt F) ((c : Thread nD τ).loc b) := Gen.V4 m (outsOf m) c (Proc.devRef .tc b)

/-- At region 0's exit each of its arrays holds what the pipeline leaves: the two inputs as entered, the output its
    write-backs. -/
theorem exit0_arr (c : Dev nD) : ∀ w : Fin cfg0.W, (dat0 (Vr1 m) c).arrAt w cfg0.N = Vr2 m c (Pipeline.arrRef spec0 w)
  | ⟨0, _⟩ => ((dat0 (Vr1 m) c).arrAt_in 0 rfl _).trans ((A_eq0 (Vr1 m) c 0).trans (Gen.V2_of m (outsOf m) c main_arg0 (by decide)).symm)
  | ⟨1, _⟩ => ((dat0 (Vr1 m) c).arrAt_in 1 rfl _).trans ((A_eq0 (Vr1 m) c 1).trans (Gen.V2_of m (outsOf m) c main_v0 (by decide)).symm)
  | ⟨2, _⟩ => (outsOf_2 m c).symm.trans (Function.update_self (Proc.devRef .tc main_v1 : DevRef τ sig) (outsOf m 2 main_v1 c) (Gen.V1 m c)).symm
/-- Every buffer that is none of region 0's arrays is at its exit as at its entry. -/
theorem exit0_rest (c : Dev nD) : ∀ b, b ∉ Finset.univ.image (Pipeline.arrRef spec0) → Vr2 m c b = Vr1 m c b :=
  fun b hb => Gen.V2_of m (outsOf m) c b fun h =>
    hb (Finset.mem_image.mpr ⟨2, Finset.mem_univ _, (List.mem_singleton.mp h).symm⟩)

/-- At region 1's exit its output array holds what the write-backs leave. -/
theorem exit1_arr (c : Dev nD) : (dat1 (Vr3 m) c).arrAt 2 cfg1.N = Vr4 m c main_v3 :=
  (outsOf_4 m c).symm.trans (Function.update_self (Proc.devRef .tc main_v3 : DevRef τ sig) (outsOf m 4 main_v3 c) (Gen.V3 m (outsOf m) c)).symm
/-- Every buffer but region 1's output array is at its exit as at its entry. -/
theorem exit1_rest (c : Dev nD) : ∀ b : Ref sig .tc, b ≠ main_v3 → Vr4 m c b = Vr3 m c b :=
  fun b hb => Gen.V4_of m (outsOf m) c b fun h => hb (List.mem_singleton.mp h)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (Vr1 m) c
  | ⟨1, _⟩ => fun c => dat1 (Vr3 m) c
/-- No variant, no pair at which a core owes another, no level. -/
abbrev run𝒱 : Variants := Variants.none
abbrev runL : GSem nD τ sig → Finset Unit := fun _ => ∅
abbrev runLv : GSem nD τ sig → Unit → ℕ := fun _ _ => 0
/-- What rides beside the buffers through every segment: the core's generator register at some state and the core
    owing nothing. -/
abbrev Ride (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues: every unscoped buffer at the last contents, the generator register
    at some state. -/
abbrev Tlast (c : Dev nD) : sProp 𝕄 := iprop(StableHlo.held (c : Thread nD τ) (Pipeline.ucRefs τ sig) (Gen.V4 m (outsOf m) c) ∗ ∃ r, prngReg c r)

/-! ## The regions as segments -/

set_option backward.isDefEq.respectTransparency.types false in
/-- Region 0, the matrix product: entered from every unscoped buffer after the first reshape, left with its product
    in main_v1. Its three arrays are split out of the unscoped buffers and put back at the exit contents; the generator
    register goes into the class invariant and comes out; nothing is owed. -/
def reg0 : Pipeline.RegionSeg (pcfgs (F := F)) Gen.adm (pdats m) () defs₀ run𝒱 runL runLv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ runL runLv 0 fun _ _ => rfl
  pre c := iprop(StableHlo.held (c : Thread nD τ) (Pipeline.ucRefs τ sig) (Gen.V1 m c) ∗ Ride c)
  post c := iprop(StableHlo.held (c : Thread nD τ) (Pipeline.ucRefs τ sig) (Gen.V2 m (outsOf m) c) ∗ Ride c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, the all-pairs pass: entered from every unscoped buffer after the second reshape, left with its sums in
    main_v3. Its two input windows read one array, dealt to them in halves at the entry and made whole again at the
    exit; the invariant's first and last points are reached from, and give back, the class invariant; nothing is owed. -/
def reg1 : Pipeline.RegionSeg (pcfgs (F := F)) Gen.adm (pdats m) () defs₀ run𝒱 runL runLv 1 where
  win := Gen.winFacts₀1
  block_pos := Gen.block_pos1
  stage_whole := Gen.stage_whole1
  K := PEmpty
  osem k := k.elim
  ho := Pipeline.OwnSemFacts.none _
  hbody c := (body_obligation1 (Vr3 m) c).loose
  hwaits := Pipeline.hwaits_of_owed_zero _ _ _ _ runL runLv 1 fun _ _ => rfl
  pre c := iprop(StableHlo.held (c : Thread nD τ) (Pipeline.ucRefs τ sig) (Gen.V3 m (outsOf m) c) ∗ Ride c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none]
    have hsplit := arrays1_of_unscopedBufs c (Vr3 m c) (pdats m 1 c) rfl rfl (A_eq1 (Vr3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr3 m) c)
    unfold Pipeline.ΦA
    iintro ⟨Hp, -, Hr⟩
    isplitl [Hr]; · iexact Hr
    iexact Hp
  hout c := by
    rw [Pipeline.ownSems0_none]
    refine BIBase.Entails.trans (hout1 (Vr3 m) c) ?_
    unfold Pipeline.ΦA
    iintro ⟨Hr, Hp⟩
    isplitl [Hp]; · iexact Hp
    isplitr; · iempintro
    iexact Hr
  hexit c := by
    have hjoin := unscopedBufs_of_arrays1 c (Vr3 m c) (Vr4 m c) (pdats m 1 c) rfl rfl (A_eq1 (Vr3 m) c)
      (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

set_option backward.isDefEq.respectTransparency.types false in
/-- THE RUN, with every unscoped buffer's final contents named. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Gen.V4 m (outsOf m) c b) := by
  refine Pipeline.θ_run_regions_kit_dev (pcfgs (F := F)) Gen.adm (pdats m) () cellOf_inj emb₁ defs₀ run𝒱 runL runLv m ρ main
    (Gen.segs m (outsOf m) run𝒱 runL runLv (fun _ => Ride) () (pdats m) (reg0 m) (reg1 m))
    (fun c Q => by
      rewrite [main_chain c, Pipeline.Seg.run_eq_chain,
        show (Gen.segs m (outsOf m) run𝒱 runL runLv (fun _ => Ride) () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Ride c)) (Tₙ := Tlast m)
    (hch := fun c => ⟨.rfl, .rfl, .rfl, .rfl, .rfl⟩)
    (hinit := by
      refine Pipeline.initEach runL runLv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V4 m (outsOf m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V4 m (outsOf m) c) s')
      isplitl [Hh] <;> iassumption)
    (hQ := fun s h => h)

/-- The run as the value claim reads it: the result at region 1's final array, the arguments as launched. -/
theorem run_value (ρ : Dev nD → PrngReg) :
    θ_run defs (onTc (τ := τ) (main (F := F))) ⟨m, fun _ => 0, ρ⟩ (fun r => ∀ c : Dev nD,
      r.2.mem ((c.tc : Thread nD τ).loc main_v3) = (dat1 (Vr3 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (run_all m ρ)
  · exact (h c _ (mem_uc main_v3 (by decide))).trans ((Function.update_self (Proc.devRef .tc main_v3 : DevRef τ sig) (outsOf m 4 main_v3 c) (Gen.V3 m (outsOf m) c)).trans (outsOf_4 m c))
  · exact (h c _ (mem_uc main_arg0 (by decide))).trans (Gen.V4_main_arg0 m (outsOf m) c)
  · exact (h c _ (mem_uc main_arg1 (by decide))).trans (Gen.V4_main_arg1 m (outsOf m) c)

/-- The frame: the run with only the arguments read. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_value m ρ)

end Cert.Kernel.Hand

end
-- ==== Proof.KI.Region0.lean ====
/-
  Region 0 of the kernel program: the tiled matrix product. At grid point t the body reads the t-th block of 256 rows
  of x and the whole of the flattened T, and stores their product into the output window's staging buffer. Stated for
  any float instance F and at a parameter V, the contents of the core's buffers when the region is entered.
-/
import proofs.«124526_j31714038513724_1_alg».proof.Proof.Gen.KernelIdeal.Launch
import proofs.«124526_j31714038513724_1_alg».proof.Proof.Gen.KernelIdeal.Skeleton
import proofs.«124526_j31714038513724_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of region 0: the arrays as entered; after the body each input buffer still at its block and the
    output buffer at the product of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) (iblk0 V c 1 t) := by dsimp only [dat0]

/-! ## The input windows hold their blocks -/

/-- The zero offsets of a whole-buffer access, as a constant function. -/
theorem zero_off2 : (![0, 0] : Fin 2 → Nat) = fun _ => 0 :=
  funext fun a => by match a with | ⟨0, _⟩ => rfl | ⟨1, _⟩ => rfl

/-- The row block of x sits in window 0's current buffer at every point: the window is an input, never idle and
    uncut, and the body leaves the block where it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole of T sits in window 1's buffer at every point, although it is brought in at the first point only:
    its block index never moves, so what an earlier point left there is this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 0's current buffer at the proof data of this region: the row block of x. -/
theorem before0_0 (c : Dev nD) (t : Fin cfg0.N) (d) : (dat0 V c).before 0 t d = iblk0 V c 0 t :=
  before0_0_of V (dat0 V c) (A_eq0 V c 0) (after0_0 V c) t d

/-- Window 1's current buffer at the proof data of this region: the whole of T. -/
theorem before0_1 (c : Dev nD) (t : Fin cfg0.N) (d) : (dat0 V c).before 1 t d = iblk0 V c 1 t :=
  before0_1_of V (dat0 V c) (A_eq0 V c 1) (after0_1 V c) t d

/-! ## The body's triple -/

set_option maxHeartbeats 1000000 in
/-- The kernel on whole staging buffers: with the x block `x0` in the first and T as `x1` in the second, and the
    third at anything, it runs to the continuation with the two inputs as they were and the third at the product
    `k0_pay1 x0 x1`. The body also reads the third buffer before storing into it; that value is never used. The one
    store fills the whole buffer through the zero-offset rectangle of the buffer's own extents, so what is read back
    is the payload, and each input load through such a rectangle reads the contents. -/
theorem sound_kernel0 (c : Dev nD) (E : Set ℕ) (i : grid0.Coords)
    (arg1 : Memref sig .tc .vmem S256x512 .f32) (harg1 : arg1.IsWhole)
    (arg2 : Memref sig .tc .vmem S512x320 .f32) (harg2 : arg2.IsWhole)
    (arg3 : Memref sig .tc .vmem S256x320 .f32) (harg3 : arg3.IsWhole)
    (x0 : Vec F S256x512 .f32) (x1 : Vec F S512x320 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0_matmul_kernel i arg1 harg1 arg2 harg2 arg3 harg3) K := by
  simp only [cc0_matmul_kernel_eq_skeleton]; unfold cc0_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _
    (fun y => ⟨_, List.mem_singleton_self _, View.mem_set_unit_zero zero_off2 inb_S256x320_S256x320_0_0 y⟩)]
  rw [View.canon_unit_zero zero_off2]
  simp only [View.readAt_eq_ld, View.ld_unit_zero (S := S256x512) zero_off2, View.ld_unit_zero (S := S512x320) zero_off2]

/-! ## The body obligation, at a generic point -/

/-- What the body is called with at point `t`: the invariant, what the core owes, and the three windows' current
    buffers, the inputs at their blocks and the output at whatever it held. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same invariant and debt, the inputs unchanged, the output at the product. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: both input buffers hold their blocks, so the kernel's triple applies at those blocks;
    the invariant and the debt pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0 at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 of the kernel program: the all-pairs pass. The grid is 4 row tiles i by 8 column tiles j; point t = 8 i + j.
  A scratch accumulator is carried from point to point: it is zeroed at j = 0, at every point the body adds to it the
  sum over the 128 columns of tile j of exp (0 - L1 distance), and at j = 7 it is copied into the output window's
  staging buffer, which is written back there and idle elsewhere. Both input windows read one array, so each holds
  half of its share. Stated for any float instance F and at a parameter V, the buffers' contents at the region's entry.
-/
import proofs.«124526_j31714038513724_1_alg».proof.Proof.Gen.KernelIdeal.Launch
import proofs.«124526_j31714038513724_1_alg».proof.Proof.Gen.KernelIdeal.Skeleton
import proofs.«124526_j31714038513724_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's update of the accumulator: acc plus the column sums of exp (0 - distance) between the row block mi
    and the column block mj, as the body's payloads compute it. -/
def step1 (acc : Vec F S256x64 .f32) (mi : Vec F S256x64x5 .f32) (mj : Vec F S128x64x5 .f32) : Vec F S256x64 .f32 :=
  k1_pay1 (k1_pay3 mi) (k1_pay4 mj) (k1_pay5 mi mj) (k1_pay6 mj) (k1_pay7 mi) acc

/-- The accumulator after point n: restarted from zero at the first column tile of each row tile. -/
def accAt (c : Dev nD) : (n : ℕ) → n < cfg1.N → Vec F S256x64 .f32
  | 0, h => step1 (k1_pay2 (F := F)) (iblk1 V c 0 ⟨0, h⟩) (iblk1 V c 1 ⟨0, h⟩)
  | n + 1, h => step1 (if (n + 1) % 8 = 0 then (k1_pay2 (F := F)) else accAt c n (Nat.lt_of_succ_lt h))
      (iblk1 V c 0 ⟨n + 1, h⟩) (iblk1 V c 1 ⟨n + 1, h⟩)

theorem accAt_first (c : Dev nD) (t : Fin cfg1.N) (h : t.val % 8 = 0) :
    accAt V c t.val t.isLt = step1 (k1_pay2 (F := F)) (iblk1 V c 0 t) (iblk1 V c 1 t) := by
  obtain ⟨n, hn⟩ := t
  cases n with
  | zero => rfl
  | succ n => exact congrArg (fun a => step1 a _ _) (if_pos h)

theorem accAt_next (c : Dev nD) (t : Fin cfg1.N) (h : ¬ t.val % 8 = 0) :
    accAt V c t.val t.isLt = step1 (accAt V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact congrArg (fun a => step1 a _ _) (if_neg h)

/-- The scratch accumulator, a whole scoped buffer of the kernel's own. -/
abbrev scM1 : Memref sig .tc .vmem S256x64 .f32 := Memref.whole cc1_scratch0

/-- The scoped buffers that belong to the other pallas_call, each whole at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The region invariant before position n: at the start the scoped rest at anything and the generator register;
    afterwards the scratch at what the point before left in it. -/
def Phi1 (c : Dev nD) : (n : ℕ) → n ≤ cfg1.N → sProp 𝕄
  | 0, _ => Pipeline.ΦA spec1 c
  | n + 1, hn => iprop(owns (c : Thread nD τ) scM1 fullShare (accAt V c n hn) ∗ others1 (F := F) c ∗ (∃ r, prngReg c r))

/-- The proof data of region 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt V c t.val t.isLt
  Φ t := Phi1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt V c t.val t.isLt := by dsimp only [dat1]

/-! ## The two conditions of the body, in closed form over the grid -/

/-- The body's first conditional: the column tile is the first of its row tile. -/
abbrev cond1_0 (i : grid1.Coords) : Prop :=
  (Scalar.cmpi .ne (Scalar.extui (Scalar.cmpi .eq (BitVec.ofNat 32 (i 1).val) 0#32)) 0#32) = 1#1
/-- It holds at the points t with t % 8 = 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- The body's second conditional: the column tile is the last of its row tile. -/
abbrev cond1_1 (i : grid1.Coords) : Prop := k1_cond2 i = 1#1
/-- It holds at the points t with t % 8 = 7. -/
theorem hcond1_1 : ∀ t : Fin cfg1.N, cond1_1 (grid1.coords t) ↔ t.val % 8 = 7 :=
  (by decide +kernel : ∀ t : Fin grid1.N, cond1_1 (grid1.coords t) ↔ t.val % 8 = 7)

/-- The two input windows are live at every point. -/
theorem liveAt1_0 : ∀ t : Fin cfg1.N, cfg1.idle 0 (grid1.coords t) = false := by decide +kernel
theorem liveAt1_1 : ∀ t : Fin cfg1.N, cfg1.idle 1 (grid1.coords t) = false := by decide +kernel
/-- Off the last column tile the output window is idle and is not written back; on it, it is live. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## One point of the body, case by case, on any whole buffers -/

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- The first column tile of a row tile: whatever the accumulator held, it is zeroed and left at one step from zero;
    the output buffer is not touched. -/
theorem runFirst (c : Dev nD) (i : grid1.Coords)
    (a2 : Memref sig .tc .vmem S256x64x5 .f32) (h2 : a2.IsWhole) (a3 : Memref sig .tc .vmem S128x64x5 .f32) (h3 : a3.IsWhole)
    (a4 : Memref sig .tc .vmem S256x64 .f32) (h4 : a4.IsWhole) (a5 : Memref sig .tc .vmem S256x64 .f32) (h5 : a5.IsWhole)
    (hc0 : cond1_0 i) (hc1 : ¬cond1_1 i)
    (mi : Vec F S256x64x5 .f32) (mj : Vec F S128x64x5 .f32) (xo : Vec F S256x64 .f32) (E : Set ℕ) (K : PUnit → sProp 𝕄) :
    iprop(owns (c : Thread nD τ) a2 fullShare mi ∗ owns (c : Thread nD τ) a3 fullShare mj ∗ owns (c : Thread nD τ) a4 fullShare xo
        ∗ (∃ d, owns (c : Thread nD τ) a5 fullShare d)
        ∗ (iprop(owns (c : Thread nD τ) a2 fullShare mi ∗ owns (c : Thread nD τ) a3 fullShare mj ∗ owns (c : Thread nD τ) a4 fullShare xo
            ∗ owns (c : Thread nD τ) a5 fullShare (step1 (k1_pay2 (F := F)) mi mj)) -∗ K ⟨⟩))
      ⊢ wp frame (wpE (defs₀ (F := F)) Variants.none c none) E (cc1_cdist_kernel i a2 h2 a3 h3 a4 h4 a5 h5) K := by
  simp only [cc1_cdist_kernel_eq_skeleton]; unfold cc1_cdist_kernel_skel
  unfold owns
  iintro ⟨⟨%f0, %hf0, H0⟩, ⟨%f1, %hf1, H1⟩, ⟨%f2, %hf2, H2⟩, ⟨%ds, %fs, -, HS⟩, Hk⟩
  obtain rfl := h2.eq_unread hf0; obtain rfl := h3.eq_unread hf1; obtain rfl := h4.eq_unread hf2
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  iexists _; isplitr
  swap; · iexact HS
  ipureintro
  sl_unfold_words
  rw [View.read_writes_eq_canon _ _ _ (fun y => ⟨_, List.mem_cons_self .., View.mem_set_unit_zero hz2 inb_S256x64_S256x64_0_0 y⟩)]
  rw [View.canon_cons_unit_zero (S := S256x64) hz2]
  unfold step1
  simp only [View.readAt_eq_ld, h2.read_unread, h3.read_unread, View.ld_unit_zero (S := S256x64) hz2,
    View.ld_unit_zero (S := S256x64x5) hz3, View.ld_unit_zero (S := S128x64x5) hz3, View.readCov_unit_zero (S := S256x64) _ hz2]

set_option maxHeartbeats 1000000 in
/-- A middle column tile: the accumulator found at acc is left at one more step; the output buffer is not touched. -/
theorem runMid (c : Dev nD) (i : grid1.Coords)
    (a2 : Memref sig .tc .vmem S256x64x5 .f32) (h2 : a2.IsWhole) (a3 : Memref sig .tc .vmem S128x64x5 .f32) (h3 : a3.IsWhole)
    (a4 : Memref sig .tc .vmem S256x64 .f32) (h4 : a4.IsWhole) (a5 : Memref sig .tc .vmem S256x64 .f32) (h5 : a5.IsWhole)
    (hc0 : ¬cond1_0 i) (hc1 : ¬cond1_1 i)
    (mi : Vec F S256x64x5 .f32) (mj : Vec F S128x64x5 .f32) (acc xo : Vec F S256x64 .f32) (E : Set ℕ) (K : PUnit → sProp 𝕄) :
    iprop(owns (c : Thread nD τ) a2 fullShare mi ∗ owns (c : Thread nD τ) a3 fullShare mj ∗ owns (c : Thread nD τ) a4 fullShare xo
        ∗ owns (c : Thread nD τ) a5 fullShare acc
        ∗ (iprop(owns (c : Thread nD τ) a2 fullShare mi ∗ owns (c : Thread nD τ) a3 fullShare mj ∗ owns (c : Thread nD τ) a4 fullShare xo
            ∗ owns (c : Thread nD τ) a5 fullShare (step1 acc mi mj)) -∗ K ⟨⟩))
      ⊢ wp frame (wpE (defs₀ (F := F)) Variants.none c none) E (cc1_cdist_kernel i a2 h2 a3 h3 a4 h4 a5 h5) K := by
  simp only [cc1_cdist_kernel_eq_skeleton]; unfold cc1_cdist_kernel_skel
  unfold owns
  iintro ⟨⟨%f0, %hf0, H0⟩, ⟨%f1, %hf1, H1⟩, ⟨%f2, %hf2, H2⟩, ⟨%fs, %hfs, HS⟩, Hk⟩
  obtain rfl := h2.eq_unread hf0; obtain rfl := h3.eq_unread hf1; obtain rfl := h4.eq_unread hf2; obtain rfl := h5.eq_unread hfs
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  iexists _; isplitr
  swap; · iexact HS
  ipureintro
  sl_unfold_words
  rw [View.read_writes_eq_canon _ _ _ (fun y => ⟨_, List.mem_cons_self .., View.mem_set_unit_zero hz2 inb_S256x64_S256x64_0_0 y⟩)]
  rw [View.canon_cons_unit_zero (S := S256x64) hz2]
  unfold step1
  simp only [View.readAt_eq_ld, h2.read_unread, h3.read_unread, h5.read_unread, View.ld_unit_zero (S := S256x64) hz2,
    View.ld_unit_zero (S := S256x64x5) hz3, View.ld_unit_zero (S := S128x64x5) hz3, View.readCov_unit_zero (S := S256x64) _ hz2]

set_option maxHeartbeats 1000000 in
/-- The last column tile of a row tile: the accumulator found at acc is left at one more step, and the output buffer,
    whatever it held, at the same. -/
theorem runLast (c : Dev nD) (i : grid1.Coords)
    (a2 : Memref sig .tc .vmem S256x64x5 .f32) (h2 : a2.IsWhole) (a3 : Memref sig .tc .vmem S128x64x5 .f32) (h3 : a3.IsWhole)
    (a4 : Memref sig .tc .vmem S256x64 .f32) (h4 : a4.IsWhole) (a5 : Memref sig .tc .vmem S256x64 .f32) (h5 : a5.IsWhole)
    (hc0 : ¬cond1_0 i) (hc1 : cond1_1 i)
    (mi : Vec F S256x64x5 .f32) (mj : Vec F S128x64x5 .f32) (acc : Vec F S256x64 .f32) (E : Set ℕ) (K : PUnit → sProp 𝕄) :
    iprop(owns (c : Thread nD τ) a2 fullShare mi ∗ owns (c : Thread nD τ) a3 fullShare mj ∗ (∃ d, owns (c : Thread nD τ) a4 fullShare d)
        ∗ owns (c : Thread nD τ) a5 fullShare acc
        ∗ (iprop(owns (c : Thread nD τ) a2 fullShare mi ∗ owns (c : Thread nD τ) a3 fullShare mj
            ∗ owns (c : Thread nD τ) a4 fullShare (step1 acc mi mj)
            ∗ owns (c : Thread nD τ) a5 fullShare (step1 acc mi mj)) -∗ K ⟨⟩))
      ⊢ wp frame (wpE (defs₀ (F := F)) Variants.none c none) E (cc1_cdist_kernel i a2 h2 a3 h3 a4 h4 a5 h5) K := by
  simp only [cc1_cdist_kernel_eq_skeleton]; unfold cc1_cdist_kernel_skel
  unfold owns
  iintro ⟨⟨%f0, %hf0, H0⟩, ⟨%f1, %hf1, H1⟩, ⟨%d2, %f2, -, H2⟩, ⟨%fs, %hfs, HS⟩, Hk⟩
  obtain rfl := h2.eq_unread hf0; obtain rfl := h3.eq_unread hf1; obtain rfl := h5.eq_unread hfs
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr
    swap; · iexact H2
    ipureintro
    sl_unfold_words
    rw [View.read_writes_eq_canon _ _ _ (fun y => ⟨_, List.mem_cons_self .., View.mem_set_unit_zero hz2 inb_S256x64_S256x64_0_0 y⟩)]
    rw [View.canon_cons_unit_zero (S := S256x64) hz2]
    unfold step1
    simp only [View.readAt_eq_ld, h2.read_unread, h3.read_unread, h5.read_unread, View.ld_unit_zero (S := S256x64) hz2,
      View.ld_unit_zero (S := S256x64x5) hz3, View.ld_unit_zero (S := S128x64x5) hz3, View.readCov_unit_zero (S := S256x64) _ hz2]
  iexists _; isplitr
  swap; · iexact HS
  ipureintro
  sl_unfold_words
  rw [View.read_writes_eq_canon _ _ _ (fun y => ⟨_, List.mem_cons_self .., View.mem_set_unit_zero hz2 inb_S256x64_S256x64_0_0 y⟩)]
  rw [View.canon_cons_unit_zero (S := S256x64) hz2]
  unfold step1
  simp only [View.readAt_eq_ld, h2.read_unread, h3.read_unread, h5.read_unread, View.ld_unit_zero (S := S256x64) hz2,
    View.ld_unit_zero (S := S256x64x5) hz3, View.ld_unit_zero (S := S128x64x5) hz3, View.readCov_unit_zero (S := S256x64) _ hz2]

/-! ## The invariant, position by position -/

theorem Phi1_zero (c : Dev nD) (n : ℕ) (h : n ≤ cfg1.N) (hz : n = 0) : Phi1 V c n h = Pipeline.ΦA spec1 c := by
  subst hz; rfl

/-- After point n: the accumulator at that point's value. -/
theorem Phi1_succ (c : Dev nD) (n : ℕ) (hn : n < cfg1.N) :
    Phi1 V c (n + 1) hn = iprop(owns (c : Thread nD τ) scM1 fullShare (accAt V c n hn) ∗ others1 (F := F) c ∗ (∃ r, prngReg c r)) := rfl

/-- Before a point that is not the first: the accumulator at what the point before left. -/
theorem Phi1_pos (c : Dev nD) (n : ℕ) (h : n ≤ cfg1.N) (hz : n ≠ 0) :
    Phi1 V c n h = iprop(owns (c : Thread nD τ) scM1 fullShare (accAt V c (n - 1) (by omega)) ∗ others1 (F := F) c ∗ (∃ r, prngReg c r)) := by
  cases n with
  | zero => exact absurd rfl hz
  | succ n => rfl

theorem Phi1_castSucc (c : Dev nD) (t : Fin cfg1.N) :
    (dat1 V c).Φ t.castSucc = Phi1 V c t.val (Nat.le_of_lt t.isLt) := by
  dsimp only [dat1]; simp only [Fin.coe_castSucc]

/-- The class invariant spelled out: the other call's five staging buffers and the accumulator, each at some
    contents, and the generator register. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ d, owns (c : Thread nD τ) scM1 fullShare d)) ∗ (∃ r, prngReg c r)) := by
  unfold Pipeline.ΦA; rw [scopedRest1_eq]; simp only [scM1, owns_whole]; try rfl

/-! ## What the body finds in the input windows -/

/-- Each input window's current buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body obligation at a generic point -/

/-- Each window's current staging buffer at point t, and its wholeness. -/
abbrev ms1_0 (t : Fin cfg1.N) : Memref sig .tc .vmem S256x64x5 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x64x5 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x64 .f32 := win1_2.stage (cfg1.slots t 2)
abbrev hs1_2 (t : Fin cfg1.N) : (ms1_2 t).IsWhole := hstage1_2 ((cfg1.slots t 2).cast nbuf1_2)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 4800000 in
/-- The body at any point, by the residue of t modulo 8: 0, the accumulator restarts; 7, the output buffer takes the
    accumulator's value; otherwise only the accumulator moves. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [accAt_first V c t h0]
    by_cases hz : t.val = 0
    · rw [Phi1_castSucc V c t, Phi1_zero V c _ _ hz, PhiA1_eq]
      unfold others1
      iintro ⟨⟨⟨HA, HB, HC, HD, HE, HS⟩, Hg⟩, Ho, ⟨%d0, H0⟩, ⟨%d1, H1⟩, ⟨%d2, H2⟩⟩
      iapply (runFirst c (grid1.coords t) (ms1_0 t) (hs1_0 t) (ms1_1 t) (hs1_1 t) (ms1_2 t) (hs1_2 t) scM1 (Memref.isWhole_whole _)
        ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS]; · iexact HS
      iintro ⟨H0, H1, H2, HS⟩
      isplitl [HS HA HB HC HD HE Hg]
      · isplitl [HS]; · iexact HS
        isplitl [HA HB HC HD HE]
        · isplitl [HA]; · iexact HA
          isplitl [HB]; · iexact HB
          isplitl [HC]; · iexact HC
          isplitl [HD]; · iexact HD
          iexact HE
        iexact Hg
      isplitl [Ho]; · iexact Ho
      isplitl [H0]; · iexact H0
      isplitl [H1]; · iexact H1
      iexists _; iexact H2
    · rw [Phi1_castSucc V c t, Phi1_pos V c _ _ hz]
      iintro ⟨⟨HS, Hoth, Hg⟩, Ho, ⟨%d0, H0⟩, ⟨%d1, H1⟩, ⟨%d2, H2⟩⟩
      iapply (runFirst c (grid1.coords t) (ms1_0 t) (hs1_0 t) (ms1_1 t) (hs1_1 t) (ms1_2 t) (hs1_2 t) scM1 (Memref.isWhole_whole _)
        ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS]; · iexists _; iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexists _; iexact H2
  · have hz : t.val ≠ 0 := fun h => h0 (by rw [h])
    rw [Phi1_castSucc V c t, Phi1_pos V c _ _ hz]
    rw [accAt_next V c t h0]
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [accAt_next V c t h0]
      iintro ⟨⟨HS, Hoth, Hg⟩, Ho, ⟨%d0, H0⟩, ⟨%d1, H1⟩, ⟨%d2, H2⟩⟩
      iapply (runLast c (grid1.coords t) (ms1_0 t) (hs1_0 t) (ms1_1 t) (hs1_1 t) (ms1_2 t) (hs1_2 t) scM1 (Memref.isWhole_whole _)
        (fun h => h0 ((hcond1_0 t).mp h)) ((hcond1_1 t).mpr h1) (iblk1 V c 0 t) (iblk1 V c 1 t)
        (accAt V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexact H2
    · rw [Dat.leavesExact_idle (dat1 V c) 2 t (idleAt1_2 t (fun h => h1 ((hcond1_1 t).mp h))) (noFlush1_2 t (fun h => h1 ((hcond1_1 t).mp h)))]
      iintro ⟨⟨HS, Hoth, Hg⟩, Ho, ⟨%d0, H0⟩, ⟨%d1, H1⟩, ⟨%d2, H2⟩⟩
      iapply (runMid c (grid1.coords t) (ms1_0 t) (hs1_0 t) (ms1_1 t) (hs1_1 t) (ms1_2 t) (hs1_2 t) scM1 (Memref.isWhole_whole _)
        (fun h => h0 ((hcond1_0 t).mp h)) (fun h => h1 ((hcond1_1 t).mp h)) (iblk1 V c 0 t) (iblk1 V c 1 t)
        (accAt V c (t.val - 1) (Nat.lt_of_le_of_lt (Nat.sub_le _ _) t.isLt)) _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexists _; iexact H2

/-- The body obligation of region 1 at every point. -/
theorem body_obligation1 (c : Dev nD) : BodyObligation (dat1 (F := F) V c) (defs₀ (F := F)) Variants.none () Set.univ := fun t => by
  rw [bigSep_W1, bigSep_W1]
  exact sound_body1 V c t

/-- The class invariant makes the first point's. -/
theorem hin1 (c : Dev nD) : (Pipeline.ΦA spec1 c : sProp 𝕄) ⊢ (dat1 V c).Φ 0 := by
  rw [show (dat1 V c).Φ 0 = Phi1 V c 0 (Nat.zero_le _) from rfl, Phi1_zero V c 0 _ rfl]
  try exact Idealize.SL.BI.Entails.refl _

/-- After any point but the first the invariant gives the class invariant back: the accumulator's value is forgotten. -/
theorem Phi1_out (c : Dev nD) (t : Fin (cfg1.N + 1)) (ht : t.val ≠ 0) : (dat1 V c).Φ t ⊢ (Pipeline.ΦA spec1 c : sProp 𝕄) := by
  rw [show (dat1 V c).Φ t = Phi1 V c t.val (Nat.le_of_lt_succ t.isLt) from rfl, Phi1_pos V c _ _ ht, PhiA1_eq]
  unfold others1
  iintro ⟨HS, ⟨HA, HB, HC, HD, HE⟩, Hg⟩
  isplitl [HS HA HB HC HD HE]
  · isplitl [HA]; · iexact HA
    isplitl [HB]; · iexact HB
    isplitl [HC]; · iexact HC
    isplitl [HD]; · iexact HD
    isplitl [HE]; · iexact HE
    iexists _; iexact HS
  iexact Hg

/-- The last point's invariant gives the class invariant back. -/
theorem hout1 (c : Dev nD) : (dat1 V c).Φ (Fin.last cfg1.N) ⊢ (Pipeline.ΦA spec1 c : sProp 𝕄) :=
  Phi1_out V c _ (by rw [Fin.val_last]; have : cfg1.N = 32 := N_1; omega)

end Cert.KernelIdeal.Hand

end
-- ==== Proof.KI.Shared1.lean ====
/-
  Region 1's two input windows read ONE array. At the region's entry that array's buffer, held whole at the full share,
  is dealt to the two windows as the left and the right half of the share; at the exit the two halves, still at the
  entry contents (an input array is never written), make the full share again, and the output window's array holds what
  the write-backs left.
-/
import proofs.«124526_j31714038513724_1_alg».proof.Proof.Gen.KernelIdeal.Launch
import proofs.«124526_j31714038513724_1_alg».proof.Proof.Gen.KernelIdeal.Skeleton
import proofs.«124526_j31714038513724_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Rules.PointsTo

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The buffers behind region 1's arrays: the shared input array and the output array. -/
theorem arrRef_image1 : Finset.univ.image (Pipeline.arrRef spec1) = {main_v2, main_v3} := by decide

/-- The distinct buffers behind region 1's arrays, one by one. -/
theorem arrBufs1_eq (c : Dev nD) (V : (b : Ref sig .tc) → Buf (Elt F) ((c : Thread nD τ).loc b)) :
    (Pipeline.arrBufs spec1 c V : sProp 𝕄)
      = iprop((((c : Thread nD τ).loc main_v2) ↦{fullShare} V main_v2) ∗ (((c : Thread nD τ).loc main_v3) ↦{fullShare} V main_v3)) := by
  unfold Pipeline.arrBufs
  rw [arrRef_image1, bigSep_insert (by decide), bigSep_singleton]
  rfl

/-- Region 1's arrays, one by one: the shared array at the left and at the right half of the share, the output whole. -/
theorem arrays1_eq (c : Dev nD) (dat : Dat τ (Elt F) Unit ℕ (UR sig nD τ) ℕ cfg1 c)
    (hq0 : dat.q 0 = fullShare.left) (hq1 : dat.q 1 = fullShare.right)
    (G : (w : Fin cfg1.W) → Buf (Elt F) ((cfg1.win w).arr.view.loc (c : Thread nD τ))) :
    (dat.arrays G : sProp 𝕄)
      = iprop((((c : Thread nD τ).loc main_v2) ↦{fullShare.left} G 0) ∗ (((c : Thread nD τ).loc main_v2) ↦{fullShare.right} G 1)
          ∗ (((c : Thread nD τ).loc main_v3) ↦{fullShare} G 2)) := by
  have h0 : dat.share 0 = fullShare.left := hq0
  have h1 : dat.share 1 = fullShare.right := hq1
  have h2 : dat.share 2 = fullShare := rfl
  unfold Dat.arrays
  rw [bigSep_W1, (arr_whole1 0).set_eq_univ, (arr_whole1 2).set_eq_univ, h0, h1, h2]

/-- A core's unscoped buffers: the buffers behind region 1's arrays and the rest. -/
theorem unscopedBufs1_eq (c : Dev nD) (V : (b : Ref sig .tc) → Buf (Elt F) ((c : Thread nD τ).loc b)) :
    (unscopedBufs c V : sProp 𝕄) = iprop(Pipeline.arrBufs spec1 c V ∗ Pipeline.unscopedRest spec1 c V) :=
  Pipeline.unscopedBufs_split₀ cfgs 1 winFacts₀1.arr_unscoped c V

/-- ENTRY: a core's unscoped buffers at contents Vc are region 1's arrays at any proof data's entry contents that read
    them off Vc, the shared array split between the two input windows, beside the unscoped buffers no window reads. -/
theorem arrays1_of_unscopedBufs (c : Dev nD) (Vc : (b : Ref sig .tc) → Buf (Elt F) ((c : Thread nD τ).loc b))
    (dat : Dat τ (Elt F) Unit ℕ (UR sig nD τ) ℕ cfg1 c)
    (hq0 : dat.q 0 = fullShare.left) (hq1 : dat.q 1 = fullShare.right)
    (hA : ∀ w, dat.A w = Vc (Pipeline.arrRef spec1 w)) :
    (unscopedBufs c Vc : sProp 𝕄) ⊢ iprop(dat.arrays (dat.arrAt · 0) ∗ Pipeline.unscopedRest spec1 c Vc) := by
  rw [unscopedBufs1_eq, arrBufs1_eq, arrays1_eq c dat hq0 hq1]
  refine sep_mono ?_ .rfl
  -- at the entry every window's array holds what Vc has at its buffer
  rw [show dat.arrAt 0 0 = Vc main_v2 from hA 0, show dat.arrAt 1 0 = Vc main_v2 from hA 1, show dat.arrAt 2 0 = Vc main_v3 from hA 2]
  iintro ⟨H2, H3⟩
  -- the shared array's full share is its left half beside its right half
  ihave H := (pointsTo_share (PosShare.mem_left_op_right fullShare)).1 $$ H2
  icases H with ⟨Hl, Hr⟩
  isplitl [Hl]; · iexact Hl
  isplitl [Hr] <;> iassumption

/-- EXIT: the arrays at their final contents beside the unscoped rest at Vc make the core's unscoped buffers at any
    contents Vc' that agree with Vc off the output's array and hold the output's final contents there. -/
theorem unscopedBufs_of_arrays1 (c : Dev nD) (Vc Vc' : (b : Ref sig .tc) → Buf (Elt F) ((c : Thread nD τ).loc b))
    (dat : Dat τ (Elt F) Unit ℕ (UR sig nD τ) ℕ cfg1 c)
    (hq0 : dat.q 0 = fullShare.left) (hq1 : dat.q 1 = fullShare.right)
    (hA : ∀ w, dat.A w = Vc (Pipeline.arrRef spec1 w))
    (hF : dat.arrAt 2 cfg1.N = Vc' main_v3) (hrest : ∀ b : Ref sig .tc, b ≠ main_v3 → Vc' b = Vc b) :
    iprop(dat.arrays (dat.arrAt · cfg1.N) ∗ Pipeline.unscopedRest spec1 c Vc) ⊢ (unscopedBufs c Vc' : sProp 𝕄) := by
  -- an input array is never written, and Vc' agrees with Vc at the shared array's buffer
  have e0 : dat.arrAt 0 cfg1.N = Vc' main_v2 := by
    rw [dat.arrAt_in 0 rfl, hA 0]; exact (hrest main_v2 (by decide)).symm
  have e1 : dat.arrAt 1 cfg1.N = Vc' main_v2 := by
    rw [dat.arrAt_in 1 rfl, hA 1]; exact (hrest main_v2 (by decide)).symm
  rw [unscopedBufs1_eq, arrBufs1_eq, arrays1_eq c dat hq0 hq1]
  refine sep_mono ?_ (Entails.of_eq ?_)
  · rw [e0, e1, hF]
    iintro ⟨Hl, Hr, H3⟩
    isplitl [Hl Hr]
    · -- the two halves, at the same contents, make the full share again
      iapply (pointsTo_share (PosShare.mem_left_op_right fullShare)).2
      isplitl [Hl] <;> iassumption
    · iexact H3
  · -- no buffer of the rest is the output's array
    unfold Pipeline.unscopedRest
    exact bigSep_congr fun b hb => by
      rw [hrest b fun h => (Finset.mem_sdiff.mp hb).2 (h ▸ Finset.mem_image.mpr ⟨2, Finset.mem_univ _, rfl⟩)]

end Cert.KernelIdeal.Hand

end
-- ==== Proof.KI.Run.lean ====
/-
  The run of the kernel program: host reshape, region 0 (the matrix product), host reshape, region 1 (the all-pairs
  pass), as four segments entered one from the other. Every weakly fair execution terminates; the argument arrays end
  as launched and the result array ends at what region 1's write-backs leave, region 1 having been entered from the
  reshape of what region 0's write-backs leave. Stated for any float instance F.
-/
import proofs.«124526_j31714038513724_1_alg».proof.Proof.KI.Region0
import proofs.«124526_j31714038513724_1_alg».proof.Proof.KI.Region1
import proofs.«124526_j31714038513724_1_alg».proof.Proof.KI.Shared1
import proofs.«124526_j31714038513724_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The buffers' contents when region 0 is entered: the launch memory after the first host reshape. -/
abbrev Vr1 (c : Dev nD) (b : Ref sig .tc) : Buf (Elt F) ((c : Thread nD τ).loc b) := Gen.V1 m c (Proc.devRef .tc b)

/-- Region 0's share of what the regions leave: its product in main_v1, read off the entry contents elsewhere. -/
def outsProd (m : (ℓ : Loc nD τ sig) → Buf (Elt F) ℓ) : Gen.Outs (F := F) := fun _ r c =>
  Function.update (Vr1 m c) main_v1 ((dat0 (Vr1 m) c).arrAt 2 cfg0.N) r

/-- The buffers' contents when region 1 is entered, written over region 0's product alone. -/
abbrev VrMid (c : Dev nD) (b : Ref sig .tc) : Buf (Elt F) ((c : Thread nD τ).loc b) := Gen.V3 m (outsProd m) c (Proc.devRef .tc b)

/-- What the regions leave in the arrays they write: region 0 its product in main_v1, region 1 its sums in main_v3. -/
def outsOf (m : (ℓ : Loc nD τ sig) → Buf (Elt F) ℓ) : Gen.Outs (F := F) := fun n r c =>
  Function.update (fun r' => outsProd m n r' c) main_v3 ((dat1 (VrMid m) c).arrAt 2 cfg1.N) r

/-- The buffers' contents when region 1 is entered. -/
abbrev Vr3 (c : Dev nD) (b : Ref sig .tc) : Buf (Elt F) ((c : Thread nD τ).loc b) := Gen.V3 m (outsOf m) c (Proc.devRef .tc b)

theorem outsProd_2 (c : Dev nD) : outsProd m 2 main_v1 c = (dat0 (Vr1 m) c).arrAt 2 cfg0.N := by
  unfold outsProd; exact Function.update_self ..

theorem outsOf_2 (c : Dev nD) : outsOf m 2 main_v1 c = (dat0 (Vr1 m) c).arrAt 2 cfg0.N := by
  unfold outsOf
  rw [Function.update_of_ne (by decide : (main_v1 : Ref sig .tc) ≠ main_v3)]
  exact outsProd_2 m c

/-- Region 1 is entered from the same contents whichever of the two families is read: the second host reshape reads
    the families at region 0's product alone. -/
theorem mid_eq (c : Dev nD) : Gen.V3 m (outsOf m) c = Gen.V3 m (outsProd m) c :=
  congrArg (fun v => StableHlo.after hostOps1 (Function.update (Gen.V1 m c) (Proc.devRef .tc main_v1) v))
    ((outsOf_2 m c).trans (outsProd_2 m c).symm)

theorem Vr3_eq : Vr3 m = VrMid m := by
  funext c b; exact congrFun (mid_eq m c) (Proc.devRef .tc b)

theorem outsOf_4 (c : Dev nD) : outsOf m 4 main_v3 c = (dat1 (Vr3 m) c).arrAt 2 cfg1.N := by
  rw [Vr3_eq]; unfold outsOf; exact Function.update_self ..

/-! ## The buffers' contents at the regions' exits, read at the TensorCore's references -/

/-- The buffers' contents when region 0 is left. -/
abbrev Vr2 (c : Dev nD) (b : Ref sig .tc) : Buf (Elt F) ((c : Thread nD τ).loc b) := Gen.V2 m (outsOf m) c (Proc.devRef .tc b)
/-- The buffers' contents when region 1 is left. -/
abbrev Vr4 (c : Dev nD) (b : Ref sig .tc) : Buf (Elt F) ((c : Thread nD τ).loc b) := Gen.V4 m (outsOf m) c (Proc.devRef .tc b)

/-- At region 0's exit each of its arrays holds what the pipeline leaves: the two inputs as entered, the output its
    write-backs. -/
theorem exit0_arr (c : Dev nD) : ∀ w : Fin cfg0.W, (dat0 (Vr1 m) c).arrAt w cfg0.N = Vr2 m c (Pipeline.arrRef spec0 w)
  | ⟨0, _⟩ => ((dat0 (Vr1 m) c).arrAt_in 0 rfl _).trans ((A_eq0 (Vr1 m) c 0).trans (Gen.V2_of m (outsOf m) c main_arg0 (by decide)).symm)
  | ⟨1, _⟩ => ((dat0 (Vr1 m) c).arrAt_in 1 rfl _).trans ((A_eq0 (Vr1 m) c 1).trans (Gen.V2_of m (outsOf m) c main_v0 (by decide)).symm)
  | ⟨2, _⟩ => (outsOf_2 m c).symm.trans (Function.update_self (Proc.devRef .tc main_v1 : DevRef τ sig) (outsOf m 2 main_v1 c) (Gen.V1 m c)).symm
/-- Every buffer that is none of region 0's arrays is at its exit as at its entry. -/
theorem exit0_rest (c : Dev nD) : ∀ b, b ∉ Finset.univ.image (Pipeline.arrRef spec0) → Vr2 m c b = Vr1 m c b :=
  fun b hb => Gen.V2_of m (outsOf m) c b fun h =>
    hb (Finset.mem_image.mpr ⟨2, Finset.mem_univ _, (List.mem_singleton.mp h).symm⟩)

/-- At region 1's exit its output array holds what the write-backs leave. -/
theorem exit1_arr (c : Dev nD) : (dat1 (Vr3 m) c).arrAt 2 cfg1.N = Vr4 m c main_v3 :=
  (outsOf_4 m c).symm.trans (Function.update_self (Proc.devRef .tc main_v3 : DevRef τ sig) (outsOf m 4 main_v3 c) (Gen.V3 m (outsOf m) c)).symm
/-- Every buffer but region 1's output array is at its exit as at its entry. -/
theorem exit1_rest (c : Dev nD) : ∀ b : Ref sig .tc, b ≠ main_v3 → Vr4 m c b = Vr3 m c b :=
  fun b hb => Gen.V4_of m (outsOf m) c b fun h => hb (List.mem_singleton.mp h)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (Vr1 m) c
  | ⟨1, _⟩ => fun c => dat1 (Vr3 m) c
/-- No variant, no pair at which a core owes another, no level. -/
abbrev run𝒱 : Variants := Variants.none
abbrev runL : GSem nD τ sig → Finset Unit := fun _ => ∅
abbrev runLv : GSem nD τ sig → Unit → ℕ := fun _ _ => 0
/-- What rides beside the buffers through every segment: the core's generator register at some state and the core
    owing nothing. -/
abbrev Ride (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues: every unscoped buffer at the last contents, the generator register
    at some state. -/
abbrev Tlast (c : Dev nD) : sProp 𝕄 := iprop(StableHlo.held (c : Thread nD τ) (Pipeline.ucRefs τ sig) (Gen.V4 m (outsOf m) c) ∗ ∃ r, prngReg c r)

/-! ## The regions as segments -/

set_option backward.isDefEq.respectTransparency.types false in
/-- Region 0, the matrix product: entered from every unscoped buffer after the first reshape, left with its product
    in main_v1. Its three arrays are split out of the unscoped buffers and put back at the exit contents; the generator
    register goes into the class invariant and comes out; nothing is owed. -/
def reg0 : Pipeline.RegionSeg (pcfgs (F := F)) Gen.adm (pdats m) () defs₀ run𝒱 runL runLv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ runL runLv 0 fun _ _ => rfl
  pre c := iprop(StableHlo.held (c : Thread nD τ) (Pipeline.ucRefs τ sig) (Gen.V1 m c) ∗ Ride c)
  post c := iprop(StableHlo.held (c : Thread nD τ) (Pipeline.ucRefs τ sig) (Gen.V2 m (outsOf m) c) ∗ Ride c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, the all-pairs pass: entered from every unscoped buffer after the second reshape, left with its sums in
    main_v3. Its two input windows read one array, dealt to them in halves at the entry and made whole again at the
    exit; the invariant's first and last points are reached from, and give back, the class invariant; nothing is owed. -/
def reg1 : Pipeline.RegionSeg (pcfgs (F := F)) Gen.adm (pdats m) () defs₀ run𝒱 runL runLv 1 where
  win := Gen.winFacts₀1
  block_pos := Gen.block_pos1
  stage_whole := Gen.stage_whole1
  K := PEmpty
  osem k := k.elim
  ho := Pipeline.OwnSemFacts.none _
  hbody c := (body_obligation1 (Vr3 m) c).loose
  hwaits := Pipeline.hwaits_of_owed_zero _ _ _ _ runL runLv 1 fun _ _ => rfl
  pre c := iprop(StableHlo.held (c : Thread nD τ) (Pipeline.ucRefs τ sig) (Gen.V3 m (outsOf m) c) ∗ Ride c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none]
    have hsplit := arrays1_of_unscopedBufs c (Vr3 m c) (pdats m 1 c) rfl rfl (A_eq1 (Vr3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr3 m) c)
    unfold Pipeline.ΦA
    iintro ⟨Hp, -, Hr⟩
    isplitl [Hr]; · iexact Hr
    iexact Hp
  hout c := by
    rw [Pipeline.ownSems0_none]
    refine BIBase.Entails.trans (hout1 (Vr3 m) c) ?_
    unfold Pipeline.ΦA
    iintro ⟨Hr, Hp⟩
    isplitl [Hp]; · iexact Hp
    isplitr; · iempintro
    iexact Hr
  hexit c := by
    have hjoin := unscopedBufs_of_arrays1 c (Vr3 m c) (Vr4 m c) (pdats m 1 c) rfl rfl (A_eq1 (Vr3 m) c)
      (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

set_option backward.isDefEq.respectTransparency.types false in
/-- THE RUN, with every unscoped buffer's final contents named. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Gen.V4 m (outsOf m) c b) := by
  refine Pipeline.θ_run_regions_kit_dev (pcfgs (F := F)) Gen.adm (pdats m) () cellOf_inj emb₁ defs₀ run𝒱 runL runLv m ρ main
    (Gen.segs m (outsOf m) run𝒱 runL runLv (fun _ => Ride) () (pdats m) (reg0 m) (reg1 m))
    (fun c Q => by
      rewrite [main_chain c, Pipeline.Seg.run_eq_chain,
        show (Gen.segs m (outsOf m) run𝒱 runL runLv (fun _ => Ride) () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Ride c)) (Tₙ := Tlast m)
    (hch := fun c => ⟨.rfl, .rfl, .rfl, .rfl, .rfl⟩)
    (hinit := by
      refine Pipeline.initEach runL runLv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V4 m (outsOf m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V4 m (outsOf m) c) s')
      isplitl [Hh] <;> iassumption)
    (hQ := fun s h => h)

/-- The run as the value claim reads it: the result at region 1's final array, the arguments as launched. -/
theorem run_value (ρ : Dev nD → PrngReg) :
    θ_run defs (onTc (τ := τ) (main (F := F))) ⟨m, fun _ => 0, ρ⟩ (fun r => ∀ c : Dev nD,
      r.2.mem ((c.tc : Thread nD τ).loc main_v3) = (dat1 (Vr3 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (run_all m ρ)
  · exact (h c _ (mem_uc main_v3 (by decide))).trans ((Function.update_self (Proc.devRef .tc main_v3 : DevRef τ sig) (outsOf m 4 main_v3 c) (Gen.V3 m (outsOf m) c)).trans (outsOf_4 m c))
  · exact (h c _ (mem_uc main_arg0 (by decide))).trans (Gen.V4_main_arg0 m (outsOf m) c)
  · exact (h c _ (mem_uc main_arg1 (by decide))).trans (Gen.V4_main_arg1 m (outsOf m) c)

/-- The frame: the run with only the arguments read. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_value m ρ)

end Cert.KernelIdeal.Hand

end
-- ==== Proof.Spec.lean ====
/-
  The specification, over the extended reals, of what both programs compute.
  From x (1024 x 512) and T (512 x 64 x 5): the matrix product M = x · T', T' being T with its last two axes flattened
  (512 x 320), read as M[a, f, k] (1024 x 64 x 5); then
      out[a, f] = Σ_b exp (-(Σ_k |M[a, f, k] - M[b, f, k]|)),   b over all 1024 rows, k over the 5 slices,
  the five terms of the inner sum added in the order k = 0, 1, 2, 3, 4.
  Also here: the one law that joins a sum taken tile by tile to the whole sum.
-/
import Idealize.ShloMosaic.PureOps.Ideal
import Idealize.ShloMosaic.Lib.ValueIdx
import Mathlib.Algebra.BigOperators.Fin
import Mathlib.Logic.Equiv.Fin.Basic

noncomputable section

namespace Cert.Spec

open Idealize.ShloMosaic Idealize.ShloMosaic.ValueIdx
open scoped BigOperators

abbrev SX : Shape := ⟨2, ![1024, 512]⟩
abbrev ST : Shape := ⟨3, ![512, 64, 5]⟩
abbrev STf : Shape := ⟨2, ![512, 320]⟩
abbrev SMf : Shape := ⟨2, ![1024, 320]⟩
abbrev SM : Shape := ⟨3, ![1024, 64, 5]⟩
abbrev SO : Shape := ⟨2, ![1024, 64]⟩

/-- The matrix product, entry by entry. -/
def MM (x : SX.Idx → EReal) (t : STf.Idx → EReal) : SMf.Idx → EReal :=
  fun i => ∑ k : Fin 512, x (ix2 (i 0 : Fin 1024) k) * t (ix2 k (i 1 : Fin 320))

/-- The absolute value on the extended reals. -/
def absE (a : EReal) : EReal := max a (-a)

/-- One slice's contribution to the distance between rows a and b in feature f. -/
def term (M : SM.Idx → EReal) (a b : Fin 1024) (f : Fin 64) (k : Fin 5) : EReal :=
  absE (M (ix3 a f k) - M (ix3 b f k))

/-- The L1 distance between rows a and b in feature f, over the five slices. -/
def dist (M : SM.Idx → EReal) (a b : Fin 1024) (f : Fin 64) : EReal :=
  term M a b f 0 + term M a b f 1 + term M a b f 2 + term M a b f 3 + term M a b f 4

/-- The all-pairs pass: for row a and feature f, the sum over every row b of exp (-distance). -/
def CD (M : SM.Idx → EReal) : SO.Idx → EReal :=
  fun i => ∑ b : Fin 1024, Ideal.exp (-(dist M (i 0 : Fin 1024) b (i 1 : Fin 64)))

/-- What both programs compute. -/
def G (x : SX.Idx → EReal) (T : ST.Idx → EReal) : SO.Idx → EReal :=
  CD (shapeCast SM (MM x (shapeCast STf T)))

/-- Row b = 128 j + r of the 1024 rows, as tile j and row r within it. -/
def rowOf (j : Fin 8) (r : Fin 128) : Fin 1024 := ⟨128 * j.val + r.val, by have := j.isLt; have := r.isLt; omega⟩

/-- A sum over the 1024 rows is the sum over the 8 tiles of the sums over each tile's 128 rows. -/
theorem sum_rows_tiled (g : Fin 1024 → EReal) : ∑ b : Fin 1024, g b = ∑ j : Fin 8, ∑ r : Fin 128, g (rowOf j r) := by
  -- the pair (j, r) ↦ r + 128 j is a bijection of the 8 × 128 pairs onto the 1024 rows, and it is rowOf
  have he : ∀ p : Fin 8 × Fin 128, (finProdFinEquiv p : Fin (8 * 128)) = rowOf p.1 p.2 := by
    intro p; apply Fin.ext; simp [finProdFinEquiv, rowOf]; omega
  calc ∑ b : Fin 1024, g b = ∑ p : Fin 8 × Fin 128, g (finProdFinEquiv p : Fin (8 * 128)) :=
        (Equiv.sum_comp (finProdFinEquiv : Fin 8 × Fin 128 ≃ Fin (8 * 128)) g).symm
    _ = ∑ p : Fin 8 × Fin 128, g (rowOf p.1 p.2) := Finset.sum_congr rfl fun p _ => by rw [he p]
    _ = ∑ j : Fin 8, ∑ r : Fin 128, g (rowOf j r) := Fintype.sum_prod_type _

end Cert.Spec

end
-- ==== Proof.KI.Val0.lean ====
/-
  What region 0 leaves in its output array, over the extended reals: the write-backs of the four row tiles, each the
  product of its 256 rows of x with the whole flattened T, together are the matrix product of the arrays the region
  was entered with.
-/
import proofs.«124526_j31714038513724_1_alg».proof.Proof.Spec
import proofs.«124526_j31714038513724_1_alg».proof.Proof.KI.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Idealize.ShloMosaic Idealize.ShloMosaic.TcCoe Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

open Idealize.ShloMosaic.ValueIdx
open scoped BigOperators

/-! ## The tile product at an entry -/

/-- The left operand's index for output entry i and contraction position q: its row is the output's row. -/
theorem lhs_tile_0 (i : S256x320.Idx) (q : dot_S256x512_S512x320_S256x320_1_0_0_1_n_n.contr.Idx) :
    (dot_S256x512_S512x320_S256x320_1_0_0_1_n_n.lhsIdx i q 0).val = (i 0).val := by
  unfold DotDims.lhsIdx
  rw [dif_neg (show ¬(0 : Fin S256x512.rank) ∈ dot_S256x512_S512x320_S256x320_1_0_0_1_n_n.lhsBatch by decide), dif_pos (show (0 : Fin S256x512.rank) ∈ dot_S256x512_S512x320_S256x320_1_0_0_1_n_n.lhsNonContracting by decide)]
  rfl
/-- Its column is the contraction position. -/
theorem lhs_tile_1 (i : S256x320.Idx) (q : dot_S256x512_S512x320_S256x320_1_0_0_1_n_n.contr.Idx) :
    (dot_S256x512_S512x320_S256x320_1_0_0_1_n_n.lhsIdx i q 1).val = (q ⟨0, by decide⟩).val :=
  dot_S256x512_S512x320_S256x320_1_0_0_1_n_n.lhsIdx_val_of_single rfl i q
/-- The right operand's index: its row is the contraction position. -/
theorem rhs_tile_0 (i : S256x320.Idx) (q : dot_S256x512_S512x320_S256x320_1_0_0_1_n_n.contr.Idx) :
    (dot_S256x512_S512x320_S256x320_1_0_0_1_n_n.rhsIdx i q 0).val = (q ⟨0, by decide⟩).val :=
  dot_S256x512_S512x320_S256x320_1_0_0_1_n_n.rhsIdx_val_of_single rfl i q
/-- Its column is the output's column. -/
theorem rhs_tile_1 (i : S256x320.Idx) (q : dot_S256x512_S512x320_S256x320_1_0_0_1_n_n.contr.Idx) :
    (dot_S256x512_S512x320_S256x320_1_0_0_1_n_n.rhsIdx i q 1).val = (i 1).val := by
  unfold DotDims.rhsIdx
  rw [dif_neg (show ¬(1 : Fin S512x320.rank) ∈ dot_S256x512_S512x320_S256x320_1_0_0_1_n_n.rhsBatch by decide), dif_pos (show (1 : Fin S512x320.rank) ∈ dot_S256x512_S512x320_S256x320_1_0_0_1_n_n.rhsNonContracting by decide)]
  rfl

/-- The tile product at an entry: the sum over the 512 contraction positions of the products of the left tile's row
    and the right operand's column; the casts to the narrower format are the identity on the extended reals and the
    accumulator starts at zero. -/
theorem tile_product_apply (x0 : Vec Ideal S256x512 .f32) (x1 : Vec Ideal S512x320 .f32) (p : Fin 256) (n : Fin 320) :
    k0_pay1 (F := Ideal) x0 x1 (ix2 p n) = ∑ k : Fin 512, x0 (ix2 p k) * x1 (ix2 k n) := by
  unfold k0_pay1
  simp only [shapeCast_self, matmul]
  rw [Ideal.matmul_constant_zero_apply, ← Equiv.sum_comp (ValueIdx.contrEquiv1 dot_S256x512_S512x320_S256x320_1_0_0_1_n_n 512 rfl rfl).symm]
  refine Finset.sum_congr rfl fun k _ => ?_
  have hk := ValueIdx.contrEquiv1_symm_val dot_S256x512_S512x320_S256x320_1_0_0_1_n_n 512 rfl rfl k
  have el : dot_S256x512_S512x320_S256x320_1_0_0_1_n_n.lhsIdx (ix2 p n) ((ValueIdx.contrEquiv1 dot_S256x512_S512x320_S256x320_1_0_0_1_n_n 512 rfl rfl).symm k) = ix2 p k := funext fun a => Fin.ext (by
    match a with
    | ⟨0, _⟩ => exact lhs_tile_0 _ _
    | ⟨1, _⟩ => exact (lhs_tile_1 _ _).trans hk)
  have er : dot_S256x512_S512x320_S256x320_1_0_0_1_n_n.rhsIdx (ix2 p n) ((ValueIdx.contrEquiv1 dot_S256x512_S512x320_S256x320_1_0_0_1_n_n 512 rfl rfl).symm k) = ix2 k n := funext fun a => Fin.ext (by
    match a with
    | ⟨0, _⟩ => exact (rhs_tile_0 _ _).trans hk
    | ⟨1, _⟩ => exact rhs_tile_1 _ _)
  rw [el, er]
  rfl

/-- A tile entry against the whole arrays: if row p of the left tile is row r of x and column n of the right operand
    is column n of the flattened T, entry (p, n) of the tile product is entry (r, n) of the matrix product. -/
theorem tile_entry (x0 : Vec Ideal S256x512 .f32) (x1 : Vec Ideal S512x320 .f32)
    (X : Cert.Spec.SX.Idx → EReal) (T : Cert.Spec.STf.Idx → EReal) (p : Fin 256) (n : Fin 320) (r : Fin 1024)
    (hx : ∀ k : Fin 512, x0 (ix2 p k) = X (ix2 r k)) (ht : ∀ k : Fin 512, x1 (ix2 k n) = T (ix2 k n)) :
    k0_pay1 (F := Ideal) x0 x1 (ix2 p n) = Cert.Spec.MM X T (ix2 r n) := by
  rw [tile_product_apply]
  show _ = ∑ k : Fin 512, X (ix2 r k) * T (ix2 k n)
  exact Finset.sum_congr rfl fun k _ => by rw [hx k, ht k]

/-! ## The tiles as parts of the arrays -/

/-- Where point t's tiles sit: the x tile and the output tile are block row t of their arrays, block column 0; the
    tile of T is always the one block (0, 0), the whole array. -/
theorem tile_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's x tile is row 256 t + p of x. -/
theorem x_block_apply (c : Dev nD) (t : Fin cfg0.N) (p : Fin 256) (k : Fin 512) (r : Fin 1024) (hr : r.val = 256 * t.val + p.val) :
    (iblk0 V c 0 t : Vec Ideal S256x512 .f32) (ix2 p k) = (V c main_arg0 : S1024x512.Idx → EReal) (ix2 r k) := by
  obtain ⟨e0, e1, -⟩ := tile_index t
  unfold iblk0
  rw [View.read_apply]
  show V c main_arg0 _ = V c main_arg0 _
  congr 1
  funext a; apply Fin.ext
  match a with
  | ⟨0, _⟩ => show win0_0.index t (0 : Fin 2) * 256 + 1 * p.val = r.val; omega
  | ⟨1, _⟩ => show win0_0.index t (1 : Fin 2) * 512 + 1 * k.val = k.val; omega

/-- Point t's tile of the flattened T is all of it. -/
theorem t_block_apply (c : Dev nD) (t : Fin cfg0.N) (k : Fin 512) (n : Fin 320) :
    (iblk0 V c 1 t : Vec Ideal S512x320 .f32) (ix2 k n) = (V c main_v0 : S512x320.Idx → EReal) (ix2 k n) := by
  obtain ⟨-, -, e0, e1, -⟩ := tile_index t
  unfold iblk0
  rw [View.read_apply]
  show V c main_v0 _ = V c main_v0 _
  congr 1
  funext a; apply Fin.ext
  match a with
  | ⟨0, _⟩ => show win0_1.index t (0 : Fin 2) * 512 + 1 * k.val = k.val; omega
  | ⟨1, _⟩ => show win0_1.index t (1 : Fin 2) * 320 + 1 * n.val = n.val; omega

/-! ## From the tiles to the array -/

/-- What point t writes back is rows 256 t … 256 t + 255 of the matrix product of x and the flattened T: entry (p, n)
    of the tile product sums row p of the x tile, which is row 256 t + p of x, against column n of T. -/
theorem writeback_eq (c : Dev nD) (t : Fin cfg0.N) :
    (dat0 (F := Ideal) V c).flushed 2 t = ((cfg0.win 2).blk t).view.read (Elt Ideal) (Cert.Spec.MM (V c main_arg0) (V c main_v0)) := by
  show (cfg0.win 2).cut (grid0.coords t) ((dat0 V c).after 2 t) = _
  rw [after0_2]
  funext j
  rw [View.read_apply]
  show k0_pay1 (iblk0 V c 0 t) (iblk0 V c 1 t) ((cfg0.win 2).xinj (grid0.coords t) j)
    = Cert.Spec.MM (V c main_arg0) (V c main_v0) (((cfg0.win 2).blk t).view.emb j)
  obtain ⟨-, -, -, -, e0, e1⟩ := tile_index t
  have ht : t.val < 4 := t.isLt
  have h0 : (j 0).val < 256 := (j 0).isLt
  have h1 : (j 1).val < 320 := (j 1).isLt
  have hj : (cfg0.win 2).xinj (grid0.coords t) j = ix2 (⟨(j 0).val, h0⟩ : Fin 256) (⟨(j 1).val, h1⟩ : Fin 320) :=
    funext fun a => by match a with | ⟨0, _⟩ => rfl | ⟨1, _⟩ => rfl
  have he : ((cfg0.win 2).blk t).view.emb j = ix2 (⟨256 * t.val + (j 0).val, by omega⟩ : Fin 1024) (⟨(j 1).val, h1⟩ : Fin 320) :=
    funext fun a => Fin.ext (by
      match a with
      | ⟨0, _⟩ => show win0_2.index t (0 : Fin 2) * 256 + 1 * (j 0).val = 256 * t.val + (j 0).val; omega
      | ⟨1, _⟩ => show win0_2.index t (1 : Fin 2) * 320 + 1 * (j 1).val = (j 1).val; omega)
  rw [hj, he]
  exact tile_entry (iblk0 V c 0 t) (iblk0 V c 1 t) (V c main_arg0) (V c main_v0) _ _ _
    (fun k => x_block_apply V c t _ k _ rfl) (fun k => t_block_apply V c t k _)

/-- An entry of the output array lies in point t's tile exactly when each coordinate is in the tile's range on its axis. -/
theorem mem_tile (t : Fin cfg0.N) (i : S1024x320.Idx) :
    i ∈ ((cfg0.win 2).blk t).view.set ↔ ∀ a : Fin 2, win0_2.index t a * S256x320.size a ≤ (i a).val ∧ (i a).val < win0_2.index t a * S256x320.size a + S256x320.size a := by
  show i ∈ ((View.whole main_v1).slice (win0_2.rect t)).set ↔ _
  rw [View.set_slice_whole, Rect.mem_set_unit]
  exact Iff.rfl

/-- Every entry of the output array is written back by some point: row a by point a / 256. -/
theorem rows_covered (i : S1024x320.Idx) :
    ∃ t : Fin cfg0.N, (cfg0.win 2).flush t = true ∧ i ∈ ((cfg0.win 2).blk t).view.set := by
  have hi0 : (i 0).val < 1024 := (i 0).isLt
  have hi1 : (i 1).val < 320 := (i 1).isLt
  have hN : cfg0.N = 4 := N_0
  have hlt : (i 0).val / 256 < cfg0.N := by rw [hN]; omega
  obtain ⟨-, -, -, -, e0, e1⟩ := tile_index ⟨(i 0).val / 256, hlt⟩
  have e0' : win0_2.index ⟨(i 0).val / 256, hlt⟩ (0 : Fin 2) = (i 0).val / 256 := e0
  refine ⟨⟨(i 0).val / 256, hlt⟩, flush0_2 _, ?_⟩
  rw [mem_tile]
  intro a
  match a with
  | ⟨0, _⟩ =>
    show win0_2.index ⟨(i 0).val / 256, hlt⟩ (0 : Fin 2) * 256 ≤ (i 0).val ∧ (i 0).val < win0_2.index ⟨(i 0).val / 256, hlt⟩ (0 : Fin 2) * 256 + 256
    omega
  | ⟨1, _⟩ =>
    show win0_2.index ⟨(i 0).val / 256, hlt⟩ (1 : Fin 2) * 320 ≤ (i 1).val ∧ (i 1).val < win0_2.index ⟨(i 0).val / 256, hlt⟩ (1 : Fin 2) * 320 + 320
    omega

/-- Region 0's output array after its last point is the matrix product of the entry contents of x and the flattened T. -/
theorem arr0_final (c : Dev nD) :
    (dat0 (F := Ideal) V c).arrAt 2 cfg0.N = Cert.Spec.MM (V c main_arg0) (V c main_v0) :=
  (dat0 V c).arrAt_eq_of_cover 2 (Cert.Spec.MM (V c main_arg0) (V c main_v0)) (fun t _ => writeback_eq V c t) rows_covered

end Cert.KernelIdeal.HandValue

end
-- ==== Proof.KI.Step1.lean ====
/-
  One point's update of region 1's accumulator, read at an entry, over the extended reals: at row p of the row block
  and feature q, the new value is the old one plus the sum over the 128 rows r of the column block of
  exp (-(Σ_k |mi[p, q, k] - mj[r, q, k]|)), the five terms added in the order k = 0 … 4; and the value the
  accumulator is restarted from is zero.
-/
import proofs.«124526_j31714038513724_1_alg».proof.Proof.Spec
import proofs.«124526_j31714038513724_1_alg».proof.Proof.KI.Region1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand
open scoped BigOperators

/-- The L1 distance, over the five slices, between row p of a row block and row r of a column block in feature q. -/
def blockDist (mi : Vec Ideal S256x64x5 .f32) (mj : Vec Ideal S128x64x5 .f32) (p : Fin 256) (r : Fin 128) (q : Fin 64) : EReal :=
  Cert.Spec.absE (mi (ix3 p q (0 : Fin 5)) - mj (ix3 r q (0 : Fin 5))) + Cert.Spec.absE (mi (ix3 p q (1 : Fin 5)) - mj (ix3 r q (1 : Fin 5)))
    + Cert.Spec.absE (mi (ix3 p q (2 : Fin 5)) - mj (ix3 r q (2 : Fin 5))) + Cert.Spec.absE (mi (ix3 p q (3 : Fin 5)) - mj (ix3 r q (3 : Fin 5)))
    + Cert.Spec.absE (mi (ix3 p q (4 : Fin 5)) - mj (ix3 r q (4 : Fin 5)))

/-! ## The pointwise operations read at an index -/

/-- An absolute value at an index is the absolute value of the element. -/
private theorem absf_apply {s : Shape} {φ : FTy} (a : FVec Ideal s φ) (i : s.Idx) : absf a i = Cert.Spec.absE (a i) := rfl

/-- An exponential at an index is the exponential of the element. -/
private theorem exp_apply {s : Shape} {φ : FTy} (a : FVec Ideal s φ) (i : s.Idx) : exp a i = Ideal.exp (a i) := rfl

/-! ## One slice of a block, reshaped and spread over the 256 x 128 x 64 grid of (row, column row, feature) -/

/-- Slice k of a row block, reshaped to a column of rows and spread over the 128 column rows, read at (p, r, q),
    is the block at (p, q, k). -/
theorem rowSlice_apply (k : Fin 5) (o : ℕ) (ho : o = k.val) (mi : FVec Ideal S256x64x5 .f32)
    (h1 : S256x64x5.Slices ![0, 0, o] S256x64x1) (h2 : S256x64x1.ShapeCasts S256x64)
    (h3 : S256x64.ShapeCasts S256x1x64) (h4 : S256x1x64.Broadcasts S256x128x64)
    (p : Fin 256) (r : Fin 128) (q : Fin 64) :
    broadcastTo S256x128x64 (shapeCast S256x1x64 (shapeCast S256x64 (extractStridedSlice S256x64x1 ![0, 0, o] mi h1) h2) h3) h4 (ix3 p r q)
      = mi (ix3 p q k) := by
  subst ho
  -- the spread reads the unit axis at 0
  refine (broadcastTo_apply _ h4 (ix3 p r q) (ix3 p (0 : Fin 1) q) (fun a => ?_)).trans ?_
  · match a with
    | ⟨0, _⟩ => rfl
    | ⟨1, _⟩ => rfl
    | ⟨2, _⟩ => rfl
  -- (p, 0, q) of 256 x 1 x 64 and (p, q) of 256 x 64 sit at the same row-major place
  refine (shapeCast_apply _ h3 (ix3 p (0 : Fin 1) q) (ix2 p q) ?_).trans ?_
  · rw [Shape.rowMajor_val_two, Shape.rowMajor_val_three]
    show p.val * 64 + q.val = (p.val * 1 + 0) * 64 + q.val
    omega
  -- (p, q) of 256 x 64 and (p, q, 0) of 256 x 64 x 1 likewise
  refine (shapeCast_apply _ h2 (ix2 p q) (ix3 p q (0 : Fin 1)) ?_).trans ?_
  · rw [Shape.rowMajor_val_two, Shape.rowMajor_val_three]
    show (p.val * 64 + q.val) * 1 + 0 = p.val * 64 + q.val
    omega
  -- the slice at (p, q, 0) is the block at (p, q, k)
  exact extractStridedSlice_apply _ mi h1 (ix3 p q (0 : Fin 1)) (ix3 p q k) (fun a => by
    match a with
    | ⟨0, _⟩ => exact (Nat.zero_add _).symm
    | ⟨1, _⟩ => exact (Nat.zero_add _).symm
    | ⟨2, _⟩ => exact (Nat.add_zero _).symm)

/-- Slice k of a column block, reshaped to a row of rows and spread over the 256 rows, read at (p, r, q),
    is the block at (r, q, k). -/
theorem colSlice_apply (k : Fin 5) (o : ℕ) (ho : o = k.val) (mj : FVec Ideal S128x64x5 .f32)
    (h1 : S128x64x5.Slices ![0, 0, o] S128x64x1) (h2 : S128x64x1.ShapeCasts S128x64)
    (h3 : S128x64.ShapeCasts S1x128x64) (h4 : S1x128x64.Broadcasts S256x128x64)
    (p : Fin 256) (r : Fin 128) (q : Fin 64) :
    broadcastTo S256x128x64 (shapeCast S1x128x64 (shapeCast S128x64 (extractStridedSlice S128x64x1 ![0, 0, o] mj h1) h2) h3) h4 (ix3 p r q)
      = mj (ix3 r q k) := by
  subst ho
  refine (broadcastTo_apply _ h4 (ix3 p r q) (ix3 (0 : Fin 1) r q) (fun a => ?_)).trans ?_
  · match a with
    | ⟨0, _⟩ => rfl
    | ⟨1, _⟩ => rfl
    | ⟨2, _⟩ => rfl
  refine (shapeCast_apply _ h3 (ix3 (0 : Fin 1) r q) (ix2 r q) ?_).trans ?_
  · rw [Shape.rowMajor_val_two, Shape.rowMajor_val_three]
    show r.val * 64 + q.val = (0 * 128 + r.val) * 64 + q.val
    omega
  refine (shapeCast_apply _ h2 (ix2 r q) (ix3 r q (0 : Fin 1)) ?_).trans ?_
  · rw [Shape.rowMajor_val_two, Shape.rowMajor_val_three]
    show (r.val * 64 + q.val) * 1 + 0 = r.val * 64 + q.val
    omega
  exact extractStridedSlice_apply _ mj h1 (ix3 r q (0 : Fin 1)) (ix3 r q k) (fun a => by
    match a with
    | ⟨0, _⟩ => exact (Nat.zero_add _).symm
    | ⟨1, _⟩ => exact (Nat.zero_add _).symm
    | ⟨2, _⟩ => exact (Nat.add_zero _).symm)

/-! ## The sum over the column rows -/

/-- The sum of a 256 x 128 x 64 array over its middle axis, from the zero word, read at (p, q): the sum over r of the
    array at (p, r, q). -/
theorem colSum_apply (src : FVec Ideal S256x128x64 .f32) (h : S256x128x64.Reduces [1] S256x64) (hφ : FKind.Formats .f32)
    (hacc : (0x00000000#32 : BitVec 32) = FKind.add.neutral .f32 hφ) (p : Fin 256) (q : Fin 64) :
    multiReduction (F := Ideal) .add [1] S256x64 src 0x00000000#32 h hφ hacc (ix2 p q) = ∑ r : Fin 128, src (ix3 p r q) := by
  refine (Ideal.multiReduction_add_single src _ h hφ hacc (ix2 p q)).trans ?_
  refine Finset.sum_congr rfl fun r _ => congrArg src ?_
  funext a
  match a with
  | ⟨0, _⟩ => rfl
  | ⟨1, _⟩ => rfl
  | ⟨2, _⟩ => rfl

/-! ## The payloads at an index -/

/-- The row block is passed on as it is. -/
theorem rowBlock_eq (mi : Vec Ideal S256x64x5 .f32) : k1_pay3 (F := Ideal) mi = mi := shapeCast_self _ _

/-- The column block is passed on as it is. -/
theorem colBlock_eq (mj : Vec Ideal S128x64x5 .f32) : k1_pay4 (F := Ideal) mj = mj := shapeCast_self _ _

/-- The distance after three slices, at (p, r, q). -/
theorem dist3_apply (mi : Vec Ideal S256x64x5 .f32) (mj : Vec Ideal S128x64x5 .f32) (p : Fin 256) (r : Fin 128) (q : Fin 64) :
    k1_pay5 (F := Ideal) mi mj (ix3 p r q)
      = Cert.Spec.absE (mi (ix3 p q (0 : Fin 5)) - mj (ix3 r q (0 : Fin 5))) + Cert.Spec.absE (mi (ix3 p q (1 : Fin 5)) - mj (ix3 r q (1 : Fin 5)))
        + Cert.Spec.absE (mi (ix3 p q (2 : Fin 5)) - mj (ix3 r q (2 : Fin 5))) := by
  unfold k1_pay5
  rw [rowBlock_eq, colBlock_eq]
  rw [addf_apply, addf_apply, addf_apply, absf_apply, absf_apply, absf_apply, subf_apply, subf_apply, subf_apply, broadcast_apply,
    rowSlice_apply 0 0 rfl mi, rowSlice_apply 1 1 rfl mi, rowSlice_apply 2 2 rfl mi,
    colSlice_apply 0 0 rfl mj, colSlice_apply 1 1 rfl mj, colSlice_apply 2 2 rfl mj,
    Ideal.ofBits_def, Ideal.ofBits_zero_f32, zero_add]

/-- The fourth slice of the row block, spread, at (p, r, q). -/
theorem row3_apply (mi : Vec Ideal S256x64x5 .f32) (p : Fin 256) (r : Fin 128) (q : Fin 64) :
    k1_pay7 (F := Ideal) mi (ix3 p r q) = mi (ix3 p q (3 : Fin 5)) := by
  unfold k1_pay7
  rw [rowBlock_eq]
  exact rowSlice_apply 3 3 rfl mi _ _ _ _ p r q

/-- The fourth slice of the column block, spread, at (p, r, q). -/
theorem col3_apply (mj : Vec Ideal S128x64x5 .f32) (h4 : S1x128x64.Broadcasts S256x128x64) (p : Fin 256) (r : Fin 128) (q : Fin 64) :
    broadcastTo S256x128x64 (k1_pay6 (F := Ideal) mj) h4 (ix3 p r q) = mj (ix3 r q (3 : Fin 5)) := by
  unfold k1_pay6
  rw [colBlock_eq]
  exact colSlice_apply 3 3 rfl mj _ _ _ _ p r q

/-- The update at an entry. -/
theorem step1_apply (acc : Vec Ideal S256x64 .f32) (mi : Vec Ideal S256x64x5 .f32) (mj : Vec Ideal S128x64x5 .f32) (p : Fin 256) (q : Fin 64) :
    step1 (F := Ideal) acc mi mj (ix2 p q) = acc (ix2 p q) + ∑ r : Fin 128, Ideal.exp (-(blockDist mi mj p r q)) := by
  unfold step1 k1_pay1
  -- the old value plus the sum over the column rows …
  rw [shapeCast_self, addf_apply]
  refine congrArg (acc (ix2 p q) + ·) ?_
  refine (colSum_apply _ _ _ _ p q).trans ?_
  -- … of exp (0 - (((three slices' distance) + fourth term) + fifth term)), term by term at (p, r, q)
  refine Finset.sum_congr rfl fun r _ => ?_
  rw [rowBlock_eq, colBlock_eq, exp_apply, subf_apply, addf_apply, addf_apply, absf_apply, absf_apply, subf_apply, subf_apply, broadcast_apply,
    dist3_apply, row3_apply, col3_apply, rowSlice_apply 4 4 rfl mi, colSlice_apply 4 4 rfl mj,
    Ideal.ofBits_def, Ideal.ofBits_zero_f32, zero_sub]
  rfl

/-- The restart value at an entry. -/
theorem restart_apply (p : Fin 256) (q : Fin 64) : (k1_pay2 (F := Ideal)) (ix2 p q) = 0 := by
  unfold k1_pay2
  rw [shapeCast_self, broadcast_apply, Ideal.ofBits_def, Ideal.ofBits_zero_f32]

end Cert.KernelIdeal.HandValue

end
-- ==== Proof.KI.Val1.lean ====
/-
  What region 1 leaves in its output array, over the extended reals: for each of the four row tiles the accumulator,
  zeroed at the first column tile and increased at each of the eight column tiles by that tile's 128 column sums of
  exp (0 - distance), is written back after the eighth; together the four write-backs are, for every row a and feature
  f, the sum over all 1024 rows b of exp (-distance(a, b, f)) of the array the region was entered with.
-/
import proofs.«124526_j31714038513724_1_alg».proof.Proof.Spec
import proofs.«124526_j31714038513724_1_alg».proof.Proof.KI.Region1
import proofs.«124526_j31714038513724_1_alg».proof.Proof.KI.Step1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

open scoped BigOperators

/-- The array region 1 reads through both of its input windows, as the region finds it. -/
abbrev inArr (c : Dev nD) : Vec Ideal S1024x64x5 .f32 := V c main_v2

/-- The row tile's block at point t: window 0's. -/
abbrev rowBlk (c : Dev nD) (t : Fin cfg1.N) : Vec Ideal S256x64x5 .f32 := iblk1 V c 0 t

/-- The column tile's block at point t: window 1's. -/
abbrev colBlk (c : Dev nD) (t : Fin cfg1.N) : Vec Ideal S128x64x5 .f32 := iblk1 V c 1 t

/-- The block indices at point t = 8 i + j: the row window's and the output's are (i, 0, …), the column window's (j, 0, 0). -/
theorem blockIndex1 : ∀ t : Fin cfg1.N,
    win1_0.index t (0 : Fin 3) = t.val / 8 ∧ win1_0.index t (1 : Fin 3) = 0 ∧ win1_0.index t (2 : Fin 3) = 0
    ∧ win1_1.index t (0 : Fin 3) = t.val % 8 ∧ win1_1.index t (1 : Fin 3) = 0 ∧ win1_1.index t (2 : Fin 3) = 0
    ∧ win1_2.index t (0 : Fin 2) = t.val / 8 ∧ win1_2.index t (1 : Fin 2) = 0 :=
  (by decide +kernel : ∀ t : Fin grid1.N, _)

/-- Entry (p, q, k) of the row block at point t is entry (256 (t / 8) + p, q, k) of the array. -/
theorem rowBlk_apply (c : Dev nD) (t : Fin cfg1.N) (p : Fin 256) (q : Fin 64) (k : Fin 5) (a : Fin 1024)
    (ha : a.val = 256 * (t.val / 8) + p.val) :
    rowBlk V c t (ix3 p q k) = inArr V c (ix3 a q k) := by
  obtain ⟨e0, e1, e2, -⟩ := blockIndex1 t
  unfold rowBlk inArr iblk1
  rw [View.read_apply]
  show V c main_v2 _ = V c main_v2 _
  congr 1
  funext d
  apply Fin.ext
  match d with
  | ⟨0, _⟩ => show win1_0.index t (0 : Fin 3) * 256 + 1 * p.val = a.val; rw [e0, ha]; omega
  | ⟨1, _⟩ => show win1_0.index t (1 : Fin 3) * 64 + 1 * q.val = q.val; rw [e1]; omega
  | ⟨2, _⟩ => show win1_0.index t (2 : Fin 3) * 5 + 1 * k.val = k.val; rw [e2]; omega

/-- Entry (r, q, k) of the column block at point t is entry (128 (t % 8) + r, q, k) of the array. -/
theorem colBlk_apply (c : Dev nD) (t : Fin cfg1.N) (r : Fin 128) (q : Fin 64) (k : Fin 5) (j : Fin 8) (hj : j.val = t.val % 8) :
    colBlk V c t (ix3 r q k) = inArr V c (ix3 (Cert.Spec.rowOf j r) q k) := by
  obtain ⟨-, -, -, e0, e1, e2, -⟩ := blockIndex1 t
  unfold colBlk inArr iblk1
  rw [View.read_apply]
  show V c main_v2 _ = V c main_v2 _
  congr 1
  funext d
  apply Fin.ext
  match d with
  | ⟨0, _⟩ => show win1_1.index t (0 : Fin 3) * 128 + 1 * r.val = 128 * j.val + r.val; rw [e0, hj]; omega
  | ⟨1, _⟩ => show win1_1.index t (1 : Fin 3) * 64 + 1 * q.val = q.val; rw [e1]; omega
  | ⟨2, _⟩ => show win1_1.index t (2 : Fin 3) * 5 + 1 * k.val = k.val; rw [e2]; omega

/-- Two blocks that read rows a and b of one array in feature q have, there, that array's distance between a and b. -/
theorem blockDist_of_rows (M : Vec Ideal S1024x64x5 .f32) (mi : Vec Ideal S256x64x5 .f32) (mj : Vec Ideal S128x64x5 .f32)
    (p : Fin 256) (r : Fin 128) (q : Fin 64) (a b : Fin 1024)
    (hi : ∀ k : Fin 5, mi (ix3 p q k) = M (ix3 a q k)) (hj : ∀ k : Fin 5, mj (ix3 r q k) = M (ix3 b q k)) :
    blockDist mi mj p r q = Cert.Spec.dist M a b q := by
  unfold blockDist Cert.Spec.dist Cert.Spec.term
  rw [hi 0, hi 1, hi 2, hi 3, hi 4, hj 0, hj 1, hj 2, hj 3, hj 4]

/-- Column tile j's share of the all-pairs sum at row a and feature q (nothing past the eighth tile). -/
def tileSum (M : Vec Ideal S1024x64x5 .f32) (a : Fin 1024) (q : Fin 64) (j : ℕ) : EReal :=
  if h : j < 8 then ∑ r : Fin 128, Ideal.exp (-(Cert.Spec.dist M a (Cert.Spec.rowOf ⟨j, h⟩ r) q)) else 0

/-- What one point adds at (p, q): the share of its column tile t % 8 at row 256 (t / 8) + p. -/
theorem point_adds (c : Dev nD) (t : Fin cfg1.N) (p : Fin 256) (q : Fin 64) (a : Fin 1024)
    (ha : a.val = 256 * (t.val / 8) + p.val) :
    ∑ r : Fin 128, Ideal.exp (-(blockDist (rowBlk V c t) (colBlk V c t) p r q)) = tileSum (inArr V c) a q (t.val % 8) := by
  have h8 : t.val % 8 < 8 := Nat.mod_lt _ (by decide)
  unfold tileSum
  rw [dif_pos h8]
  refine Finset.sum_congr rfl fun r _ => ?_
  rw [blockDist_of_rows (inArr V c) (rowBlk V c t) (colBlk V c t) p r q a (Cert.Spec.rowOf ⟨t.val % 8, h8⟩ r)
    (fun k => rowBlk_apply V c t p q k a ha) (fun k => colBlk_apply V c t r q k ⟨t.val % 8, h8⟩ rfl)]

/-- The accumulator after point t, at (p, q): the shares of column tiles 0 … t % 8 at row 256 (t / 8) + p. By induction on
    the point: at the first column tile of a row tile it restarts from zero; elsewhere the point before, in the same row
    tile, left the shares of the tiles before this one. -/
theorem acc_shares (c : Dev nD) : ∀ (n : ℕ) (h : n < cfg1.N) (p : Fin 256) (q : Fin 64) (a : Fin 1024),
    a.val = 256 * (n / 8) + p.val →
    accAt V c n h (ix2 p q) = ∑ j ∈ Finset.range (n % 8 + 1), tileSum (inArr V c) a q j := by
  intro n
  induction n with
  | zero =>
    intro h p q a ha
    rw [accAt_first V c ⟨0, h⟩ rfl]
    refine (step1_apply (k1_pay2 (F := Ideal)) (rowBlk V c ⟨0, h⟩) (colBlk V c ⟨0, h⟩) p q).trans ?_
    rw [restart_apply p q, zero_add, point_adds V c ⟨0, h⟩ p q a ha]
    exact (Finset.sum_range_one _).symm
  | succ n ih =>
    intro h p q a ha
    by_cases h0 : (n + 1) % 8 = 0
    · rw [accAt_first V c ⟨n + 1, h⟩ h0]
      refine (step1_apply (k1_pay2 (F := Ideal)) (rowBlk V c ⟨n + 1, h⟩) (colBlk V c ⟨n + 1, h⟩) p q).trans ?_
      rw [restart_apply p q, zero_add, point_adds V c ⟨n + 1, h⟩ p q a ha]
      show tileSum (inArr V c) a q ((n + 1) % 8) = _
      rw [h0]
      exact (Finset.sum_range_one _).symm
    · rw [accAt_next V c ⟨n + 1, h⟩ h0]
      refine (step1_apply (accAt V c n (Nat.lt_of_succ_lt h)) (rowBlk V c ⟨n + 1, h⟩) (colBlk V c ⟨n + 1, h⟩) p q).trans ?_
      have hd : n / 8 = (n + 1) / 8 := by omega
      have hm : n % 8 + 1 = (n + 1) % 8 := by omega
      rw [ih (Nat.lt_of_succ_lt h) p q a (by rw [hd]; exact ha), point_adds V c ⟨n + 1, h⟩ p q a ha]
      show _ + tileSum (inArr V c) a q ((n + 1) % 8) = _
      rw [hm, Finset.sum_range_succ]

/-- The eight tiles' shares make the sum over all 1024 rows. -/
theorem shares_all (M : Vec Ideal S1024x64x5 .f32) (a : Fin 1024) (q : Fin 64) :
    ∑ j ∈ Finset.range 8, tileSum M a q j = Cert.Spec.CD M (ix2 a q) := by
  rw [Finset.sum_range]
  show _ = ∑ b : Fin 1024, Ideal.exp (-(Cert.Spec.dist M a b q))
  rw [Cert.Spec.sum_rows_tiled]
  refine Finset.sum_congr rfl fun j _ => ?_
  unfold tileSum
  rw [dif_pos j.isLt]

/-- What a write-back point t (t % 8 = 7) writes back is block t of the all-pairs sum of the array. -/
theorem flushed_allPairs (c : Dev nD) (t : Fin cfg1.N) (hf : (cfg1.win 2).flush t = true) :
    (dat1 (F := Ideal) V c).flushed 2 t = ((cfg1.win 2).blk t).view.read (Elt Ideal) (Cert.Spec.CD (inArr V c)) := by
  have h7 : t.val % 8 = 7 := (flush1_2 t).mp hf
  have hN : t.val < 32 := Nat.lt_of_lt_of_eq t.isLt (N_1 : cfg1.N = 32)
  obtain ⟨-, -, -, -, -, -, e0, e1⟩ := blockIndex1 t
  show (cfg1.win 2).cut (grid1.coords t) ((dat1 (F := Ideal) V c).after 2 t) = _
  rw [after1_2]
  funext y
  obtain ⟨p, q, rfl⟩ : ∃ (p : Fin 256) (q : Fin 64), y = ix2 p q := ⟨y 0, y 1, eq_ix2 y⟩
  rw [View.read_apply]
  have ha : 256 * (t.val / 8) + p.val < 1024 := by have := p.isLt; omega
  have hemb : ((cfg1.win 2).blk t).view.emb (ix2 p q) = ix2 (⟨256 * (t.val / 8) + p.val, ha⟩ : Fin 1024) q := by
    funext d
    apply Fin.ext
    match d with
    | ⟨0, _⟩ => show win1_2.index t (0 : Fin 2) * 256 + 1 * p.val = 256 * (t.val / 8) + p.val; rw [e0]; omega
    | ⟨1, _⟩ => show win1_2.index t (1 : Fin 2) * 64 + 1 * q.val = q.val; rw [e1]; omega
  show accAt V c t.val t.isLt (ix2 p q) = Cert.Spec.CD (inArr V c) (((cfg1.win 2).blk t).view.emb (ix2 p q))
  rw [hemb, acc_shares V c t.val t.isLt p q ⟨256 * (t.val / 8) + p.val, ha⟩ rfl, h7]
  exact shares_all (inArr V c) _ q

/-- Region 1's output array after its last point is the all-pairs sum of the entry contents of its input array. -/
theorem arr1_final (c : Dev nD) :
    (dat1 (F := Ideal) V c).arrAt 2 cfg1.N = Cert.Spec.CD (V c main_v2) := by
  -- every row a lies in the block written back at the last column tile of its row tile, point 8 (a / 256) + 7
  refine (dat1 (F := Ideal) V c).arrAt_eq_of_cover 2 (Cert.Spec.CD (inArr V c)) (fun t hf => flushed_allPairs V c t hf) fun i => ?_
  have hi0 : (i 0).val < 1024 := (i 0).isLt
  have hi1 : (i 1).val < 64 := (i 1).isLt
  have ht : 8 * ((i 0).val / 256) + 7 < cfg1.N := by rw [show cfg1.N = 32 from N_1]; omega
  obtain ⟨-, -, -, -, -, -, e0, e1⟩ := blockIndex1 ⟨8 * ((i 0).val / 256) + 7, ht⟩
  refine ⟨⟨8 * ((i 0).val / 256) + 7, ht⟩, (flush1_2 _).mpr (by show (8 * ((i 0).val / 256) + 7) % 8 = 7; omega), ?_⟩
  show i ∈ ((View.whole main_v3).slice (win1_2.rect ⟨8 * ((i 0).val / 256) + 7, ht⟩)).set
  rw [View.set_slice_whole, Rect.mem_set_unit]
  intro d
  match d with
  | ⟨0, _⟩ =>
    show win1_2.index ⟨8 * ((i 0).val / 256) + 7, ht⟩ (0 : Fin 2) * 256 ≤ (i 0).val
      ∧ (i 0).val < win1_2.index ⟨8 * ((i 0).val / 256) + 7, ht⟩ (0 : Fin 2) * 256 + 256
    rw [e0]
    show (8 * ((i 0).val / 256) + 7) / 8 * 256 ≤ (i 0).val ∧ (i 0).val < (8 * ((i 0).val / 256) + 7) / 8 * 256 + 256
    omega
  | ⟨1, _⟩ =>
    show win1_2.index ⟨8 * ((i 0).val / 256) + 7, ht⟩ (1 : Fin 2) * 64 ≤ (i 1).val
      ∧ (i 1).val < win1_2.index ⟨8 * ((i 0).val / 256) + 7, ht⟩ (1 : Fin 2) * 64 + 64
    rw [e1]
    omega

end Cert.KernelIdeal.HandValue

end
-- ==== Proof.KernelIsG.lean ====
/-
  The kernel program's result, over the extended reals, is the specification of the launch arguments: region 1's final
  array is the all-pairs sum of the array it was entered with, which is the reshape of region 0's final array, which is
  the matrix product of x and of the reshape of T.
-/
import proofs.«124526_j31714038513724_1_alg».proof.Proof.Spec
import proofs.«124526_j31714038513724_1_alg».proof.Proof.KI.Val0
import proofs.«124526_j31714038513724_1_alg».proof.Proof.KI.Val1
import proofs.«124526_j31714038513724_1_alg».proof.Proof.Gen.KernelIdeal.Regions
import Idealize.ShloMosaic.Lib.StableHlo.Run

noncomputable section

namespace Cert.KernelIdeal.HandValue

open Idealize.ShloMosaic Idealize.ShloMosaic.TcCoe Idealize.SL.Sem Idealize.ShloMosaic.StableHlo
open Cert.KernelIdeal Cert.KernelIdeal.Gen Cert.KernelIdeal.Hand

variable {F : FTy → Type} [FloatOps F]
variable (m : (ℓ : Loc nD τ sig) → Buf (Elt F) ℓ) (outs : Gen.Outs (F := F))

/-- Region 0 is entered with x as launched: the first reshape does not write it. -/
theorem entry0_x (c : Dev nD) : Gen.V1 m c main_arg0 = m ((c : Thread nD τ).loc main_arg0) :=
  (Gen.V1_of m c main_arg0 (by decide)).trans rfl

/-- Region 0 is entered with the flattened T: the first reshape's result. -/
theorem entry0_t (c : Dev nD) :
    (Gen.V1 m c main_v0 : S512x320.Idx → Elt F .f32) = shapeCast S512x320 (m ((c : Thread nD τ).loc main_arg1)) shapeCasts_S512x64x5_S512x320 := by
  dsimp only [Gen.V1, Gen.hostOps0]; after_results; rfl

/-- Region 1 is entered with the second reshape of what region 0 left in its output array. -/
theorem entry1_M (c : Dev nD) :
    (Gen.V3 m outs c main_v2 : S1024x64x5.Idx → Elt F .f32) = shapeCast S1024x64x5 (outs 2 main_v1 c) shapeCasts_S1024x320_S1024x64x5 := by
  dsimp only [Gen.V3, Gen.hostOps1]; after_results
  rw [show Gen.V2 m outs c (Proc.devRef .tc main_v1) = outs 2 main_v1 c from Function.update_self ..]
  rfl

/-- The kernel program's result is the specification of the launch arguments, for any naming `outs` of the regions'
    results that gives region 0's output array at its final contents. -/
theorem result_is_G (m : (ℓ : Loc nD τ sig) → Buf (Elt Ideal) ℓ) (outs : Gen.Outs (F := Ideal))
    (h2 : ∀ c : Dev nD, outs 2 main_v1 c = (dat0 (F := Ideal) (fun c b => Gen.V1 m c (Proc.devRef .tc b)) c).arrAt 2 cfg0.N) (c : Dev nD) :
    (dat1 (F := Ideal) (fun c b => Gen.V3 m outs c (Proc.devRef .tc b)) c).arrAt 2 cfg1.N
      = Cert.Spec.G (m ((c.tc : Thread nD τ).loc main_arg0)) (m ((c.tc : Thread nD τ).loc main_arg1)) := by
  rw [arr1_final]
  show Cert.Spec.CD (Gen.V3 m outs c main_v2) = _
  rw [entry1_M, h2, arr0_final]
  show Cert.Spec.CD (shapeCast S1024x64x5 (Cert.Spec.MM (Gen.V1 m c main_arg0) (Gen.V1 m c main_v0)) shapeCasts_S1024x320_S1024x64x5) = _
  rw [entry0_x, entry0_t]
  rfl

end Cert.KernelIdeal.HandValue

end
-- ==== Proof.RefIsG.lean ====
/-
  The reference program's result, over the extended reals, is the specification: its dot_general is the matrix product,
  its five slice / broadcast / subtract / abs / add rounds build the distance in the order k = 0 … 4, and its negate,
  exponential and sum over the second axis are the all-pairs sum.
-/
import proofs.«124526_j31714038513724_1_alg».proof.Proof.Spec
import proofs.«124526_j31714038513724_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Read

/-- The dot_general is the matrix product of x with the flattened table: entry (a, c) is Σ_k x[a, k] · T'[k, c]. -/
theorem product_flat (x0 : (⟨S1024x512, .f32⟩ : BufTy).Contents (Elt Ideal)) (x1 : (⟨S512x64x5, .f32⟩ : BufTy).Contents (Elt Ideal)) :
    val_main_v1 (F := Ideal) x0 x1 = Cert.Spec.MM x0 (shapeCast Cert.Spec.STf x1) := by
  funext i
  rw [val_main_v1_apply]
  unfold Cert.Spec.MM
  refine Finset.sum_congr rfl fun k _ => ?_
  have el : lidx_main_v1 i k = ValueIdx.ix2 (i 0 : Fin 1024) k :=
    funext fun a => Fin.ext (by match a with | ⟨0, _⟩ => rfl | ⟨1, _⟩ => rfl)
  have er : ridx_main_v1 i k = ValueIdx.ix2 k (i 1 : Fin 320) :=
    funext fun a => Fin.ext (by match a with | ⟨0, _⟩ => rfl | ⟨1, _⟩ => rfl)
  rw [el, er]
  rfl

/-- The product, reshaped to rows x features x slices, is the specification's M. -/
theorem product_stage (x0 : (⟨S1024x512, .f32⟩ : BufTy).Contents (Elt Ideal)) (x1 : (⟨S512x64x5, .f32⟩ : BufTy).Contents (Elt Ideal)) :
    val_main_v2 (F := Ideal) x0 x1 = shapeCast Cert.Spec.SM (Cert.Spec.MM x0 (shapeCast Cert.Spec.STf x1)) := by
  unfold val_main_v2
  rw [product_flat]

/-- The first round: slice k = 0 of the product, read at row a against row b in feature f, is that slice's term of the distance. -/
theorem term0_stage (x0 : (⟨S1024x512, .f32⟩ : BufTy).Contents (Elt Ideal)) (x1 : (⟨S512x64x5, .f32⟩ : BufTy).Contents (Elt Ideal)) (a b : Fin 1024) (f : Fin 64) :
    val_main_v11 (F := Ideal) x0 x1 (ValueIdx.ix3 a b f) = Cert.Spec.term (val_main_v2 (F := Ideal) x0 x1) a b f 0 := by
  have ha : idx_main_v4 (idx_main_v5 (idx_main_v6 (idx_main_v8 (ValueIdx.ix3 a b f)))) = ValueIdx.ix3 a f (0 : Fin 5) :=
    funext fun d => Fin.ext (by
      have h0 := a.isLt; have h1 := f.isLt
      match d with
      | ⟨0, _⟩ => show (a.val * 64 + f.val) / 64 = a.val; omega
      | ⟨1, _⟩ => show (a.val * 64 + f.val) / 1 % 64 = f.val; omega
      | ⟨2, _⟩ => rfl)
  have hb : idx_main_v4 (idx_main_v5 (idx_main_v7 (idx_main_v9 (ValueIdx.ix3 a b f)))) = ValueIdx.ix3 b f (0 : Fin 5) :=
    funext fun d => Fin.ext (by
      have h0 := b.isLt; have h1 := f.isLt
      match d with
      | ⟨0, _⟩ => show (b.val * 64 + f.val) / 64 = b.val; omega
      | ⟨1, _⟩ => show (b.val * 64 + f.val) / 1 % 64 = f.val; omega
      | ⟨2, _⟩ => rfl)
  rw [val_main_v11_apply, val_main_v10_apply,
    val_main_v8_apply, val_main_v6_apply, val_main_v5_apply, val_main_v4_apply, ha,
    val_main_v9_apply, val_main_v7_apply, val_main_v5_apply, val_main_v4_apply, hb]
  rfl

/-- The second round: slice k = 1 of the product, read at row a against row b in feature f, is that slice's term of the distance. -/
theorem term1_stage (x0 : (⟨S1024x512, .f32⟩ : BufTy).Contents (Elt Ideal)) (x1 : (⟨S512x64x5, .f32⟩ : BufTy).Contents (Elt Ideal)) (a b : Fin 1024) (f : Fin 64) :
    val_main_v20 (F := Ideal) x0 x1 (ValueIdx.ix3 a b f) = Cert.Spec.term (val_main_v2 (F := Ideal) x0 x1) a b f 1 := by
  have ha : idx_main_v13 (idx_main_v14 (idx_main_v15 (idx_main_v17 (ValueIdx.ix3 a b f)))) = ValueIdx.ix3 a f (1 : Fin 5) :=
    funext fun d => Fin.ext (by
      have h0 := a.isLt; have h1 := f.isLt
      match d with
      | ⟨0, _⟩ => show (a.val * 64 + f.val) / 64 = a.val; omega
      | ⟨1, _⟩ => show (a.val * 64 + f.val) / 1 % 64 = f.val; omega
      | ⟨2, _⟩ => rfl)
  have hb : idx_main_v13 (idx_main_v14 (idx_main_v16 (idx_main_v18 (ValueIdx.ix3 a b f)))) = ValueIdx.ix3 b f (1 : Fin 5) :=
    funext fun d => Fin.ext (by
      have h0 := b.isLt; have h1 := f.isLt
      match d with
      | ⟨0, _⟩ => show (b.val * 64 + f.val) / 64 = b.val; omega
      | ⟨1, _⟩ => show (b.val * 64 + f.val) / 1 % 64 = f.val; omega
      | ⟨2, _⟩ => rfl)
  rw [val_main_v20_apply, val_main_v19_apply,
    val_main_v17_apply, val_main_v15_apply, val_main_v14_apply, val_main_v13_apply, ha,
    val_main_v18_apply, val_main_v16_apply, val_main_v14_apply, val_main_v13_apply, hb]
  rfl

/-- The third round: slice k = 2 of the product, read at row a against row b in feature f, is that slice's term of the distance. -/
theorem term2_stage (x0 : (⟨S1024x512, .f32⟩ : BufTy).Contents (Elt Ideal)) (x1 : (⟨S512x64x5, .f32⟩ : BufTy).Contents (Elt Ideal)) (a b : Fin 1024) (f : Fin 64) :
    val_main_v29 (F := Ideal) x0 x1 (ValueIdx.ix3 a b f) = Cert.Spec.term (val_main_v2 (F := Ideal) x0 x1) a b f 2 := by
  have ha : idx_main_v22 (idx_main_v23 (idx_main_v24 (idx_main_v26 (ValueIdx.ix3 a b f)))) = ValueIdx.ix3 a f (2 : Fin 5) :=
    funext fun d => Fin.ext (by
      have h0 := a.isLt; have h1 := f.isLt
      match d with
      | ⟨0, _⟩ => show (a.val * 64 + f.val) / 64 = a.val; omega
      | ⟨1, _⟩ => show (a.val * 64 + f.val) / 1 % 64 = f.val; omega
      | ⟨2, _⟩ => rfl)
  have hb : idx_main_v22 (idx_main_v23 (idx_main_v25 (idx_main_v27 (ValueIdx.ix3 a b f)))) = ValueIdx.ix3 b f (2 : Fin 5) :=
    funext fun d => Fin.ext (by
      have h0 := b.isLt; have h1 := f.isLt
      match d with
      | ⟨0, _⟩ => show (b.val * 64 + f.val) / 64 = b.val; omega
      | ⟨1, _⟩ => show (b.val * 64 + f.val) / 1 % 64 = f.val; omega
      | ⟨2, _⟩ => rfl)
  rw [val_main_v29_apply, val_main_v28_apply,
    val_main_v26_apply, val_main_v24_apply, val_main_v23_apply, val_main_v22_apply, ha,
    val_main_v27_apply, val_main_v25_apply, val_main_v23_apply, val_main_v22_apply, hb]
  rfl

/-- The fourth round: slice k = 3 of the product, read at row a against row b in feature f, is that slice's term of the distance. -/
theorem term3_stage (x0 : (⟨S1024x512, .f32⟩ : BufTy).Contents (Elt Ideal)) (x1 : (⟨S512x64x5, .f32⟩ : BufTy).Contents (Elt Ideal)) (a b : Fin 1024) (f : Fin 64) :
    val_main_v38 (F := Ideal) x0 x1 (ValueIdx.ix3 a b f) = Cert.Spec.term (val_main_v2 (F := Ideal) x0 x1) a b f 3 := by
  have ha : idx_main_v31 (idx_main_v32 (idx_main_v33 (idx_main_v35 (ValueIdx.ix3 a b f)))) = ValueIdx.ix3 a f (3 : Fin 5) :=
    funext fun d => Fin.ext (by
      have h0 := a.isLt; have h1 := f.isLt
      match d with
      | ⟨0, _⟩ => show (a.val * 64 + f.val) / 64 = a.val; omega
      | ⟨1, _⟩ => show (a.val * 64 + f.val) / 1 % 64 = f.val; omega
      | ⟨2, _⟩ => rfl)
  have hb : idx_main_v31 (idx_main_v32 (idx_main_v34 (idx_main_v36 (ValueIdx.ix3 a b f)))) = ValueIdx.ix3 b f (3 : Fin 5) :=
    funext fun d => Fin.ext (by
      have h0 := b.isLt; have h1 := f.isLt
      match d with
      | ⟨0, _⟩ => show (b.val * 64 + f.val) / 64 = b.val; omega
      | ⟨1, _⟩ => show (b.val * 64 + f.val) / 1 % 64 = f.val; omega
      | ⟨2, _⟩ => rfl)
  rw [val_main_v38_apply, val_main_v37_apply,
    val_main_v35_apply, val_main_v33_apply, val_main_v32_apply, val_main_v31_apply, ha,
    val_main_v36_apply, val_main_v34_apply, val_main_v32_apply, val_main_v31_apply, hb]
  rfl

/-- The fifth round: slice k = 4 of the product, read at row a against row b in feature f, is that slice's term of the distance. -/
theorem term4_stage (x0 : (⟨S1024x512, .f32⟩ : BufTy).Contents (Elt Ideal)) (x1 : (⟨S512x64x5, .f32⟩ : BufTy).Contents (Elt Ideal)) (a b : Fin 1024) (f : Fin 64) :
    val_main_v47 (F := Ideal) x0 x1 (ValueIdx.ix3 a b f) = Cert.Spec.term (val_main_v2 (F := Ideal) x0 x1) a b f 4 := by
  have ha : idx_main_v40 (idx_main_v41 (idx_main_v42 (idx_main_v44 (ValueIdx.ix3 a b f)))) = ValueIdx.ix3 a f (4 : Fin 5) :=
    funext fun d => Fin.ext (by
      have h0 := a.isLt; have h1 := f.isLt
      match d with
      | ⟨0, _⟩ => show (a.val * 64 + f.val) / 64 = a.val; omega
      | ⟨1, _⟩ => show (a.val * 64 + f.val) / 1 % 64 = f.val; omega
      | ⟨2, _⟩ => rfl)
  have hb : idx_main_v40 (idx_main_v41 (idx_main_v43 (idx_main_v45 (ValueIdx.ix3 a b f)))) = ValueIdx.ix3 b f (4 : Fin 5) :=
    funext fun d => Fin.ext (by
      have h0 := b.isLt; have h1 := f.isLt
      match d with
      | ⟨0, _⟩ => show (b.val * 64 + f.val) / 64 = b.val; omega
      | ⟨1, _⟩ => show (b.val * 64 + f.val) / 1 % 64 = f.val; omega
      | ⟨2, _⟩ => rfl)
  rw [val_main_v47_apply, val_main_v46_apply,
    val_main_v44_apply, val_main_v42_apply, val_main_v41_apply, val_main_v40_apply, ha,
    val_main_v45_apply, val_main_v43_apply, val_main_v41_apply, val_main_v40_apply, hb]
  rfl

/-- The running sum after the five rounds is the distance: it starts at zero and adds the terms in the order k = 0 … 4. -/
theorem distance_stage (x0 : (⟨S1024x512, .f32⟩ : BufTy).Contents (Elt Ideal)) (x1 : (⟨S512x64x5, .f32⟩ : BufTy).Contents (Elt Ideal)) (a b : Fin 1024) (f : Fin 64) :
    val_main_v48 (F := Ideal) x0 x1 (ValueIdx.ix3 a b f) = Cert.Spec.dist (val_main_v2 (F := Ideal) x0 x1) a b f := by
  rw [val_main_v48_apply, val_main_v39_apply, val_main_v30_apply, val_main_v21_apply, val_main_v12_apply,
    val_main_v3_apply, val_main_cst_apply,
    term0_stage, term1_stage, term2_stage, term3_stage, term4_stage]
  simp only [Ideal.addf_def, Ideal.ofBits_def, Ideal.ofBits_zero_f32, zero_add]
  rfl

/-- The last stage at (a, f): zero plus the sum over every row b of exp (-distance). -/
theorem pairs_stage (x0 : (⟨S1024x512, .f32⟩ : BufTy).Contents (Elt Ideal)) (x1 : (⟨S512x64x5, .f32⟩ : BufTy).Contents (Elt Ideal)) (i : S1024x64.Idx) :
    val_main_v51 (F := Ideal) x0 x1 i = Cert.Spec.CD (val_main_v2 (F := Ideal) x0 x1) i := by
  obtain ⟨a, f, rfl⟩ : ∃ (a : Fin 1024) (f : Fin 64), i = ValueIdx.ix2 a f := ⟨i 0, i 1, ValueIdx.eq_ix2 i⟩
  rw [val_main_v51_apply, val_main_cst_0_apply]
  unfold Cert.Spec.CD
  rw [Ideal.ofBits_def, Ideal.ofBits_zero_f32, zero_add]
  refine Finset.sum_congr rfl fun k _ => ?_
  have hk : idx_main_v51 (ValueIdx.ix2 a f) k = ValueIdx.ix3 a k f :=
    funext fun d => Fin.ext (by match d with | ⟨0, _⟩ => rfl | ⟨1, _⟩ => rfl | ⟨2, _⟩ => rfl)
  rw [hk, val_main_v50_apply, val_main_v49_apply, distance_stage]
  rfl

/-- The reference's last stage, as a function of the two arguments, is the specification. -/
theorem ref_is_G (x0 : (⟨S1024x512, .f32⟩ : BufTy).Contents (Elt Ideal)) (x1 : (⟨S512x64x5, .f32⟩ : BufTy).Contents (Elt Ideal)) :
    val_main_v51 (F := Ideal) x0 x1 = Cert.Spec.G x0 x1 := by
  funext i
  rw [pairs_stage, product_stage]
  rfl

end Cert.ReferenceIdeal.RefValue

end
-- ==== Proof.lean ====
/-
  The certificate of the minibatch-discrimination kernel against its jnp reference, over the extended reals.

  Both programs compute, from x (1024 x 512) and T (512 x 64 x 5),
      M = x · T'            (T' = T with its last two axes flattened; M read as 1024 x 64 x 5),
      out[a, f] = Σ_b exp (-(Σ_k |M[a, f, k] - M[b, f, k]|))      (b over the 1024 rows, k over the 5 slices).
  The kernel does it in two tiled passes: a matrix product by blocks of 256 rows (its casts to bf16 are the identity
  on the extended reals), and an all-pairs pass over a 4 x 8 grid of (256-row, 128-row) tiles that accumulates, for
  each row tile, the eight column tiles' partial sums of exp (0 - distance) in a scratch buffer zeroed at the first
  column tile and written out after the eighth. The reference takes the whole 1024 x 1024 x 64 array of distances,
  negates, exponentiates and sums over the second axis. The two agree because 0 - d = -d, 0 + s = s, and a sum over
  the 1024 rows is the sum over the 8 tiles of the sums over each tile's 128 rows; none of these needs the inputs to
  be finite.

  The frames: the kernel program runs as host reshape, region, host reshape, region; each region's body is run once per
  case of its conditionals and its arrays are handed over and taken back at the region's ends (the second region's two
  input windows read one array, whose share is split between them). The same text serves the word-level program and
  the idealized one, the float instance being a parameter. The reference's frame is its run with the result dropped.
  The ideal pass rewrote nothing, so there is nothing to preserve.
-/
import proofs.«124526_j31714038513724_1_alg».proof.Defs
import proofs.«124526_j31714038513724_1_alg».proof.Proof.Gen.Kernel
import proofs.«124526_j31714038513724_1_alg».proof.Proof.Gen.KernelIdeal
import proofs.«124526_j31714038513724_1_alg».proof.Proof.Gen.ReferenceIdeal
import proofs.«124526_j31714038513724_1_alg».proof.Proof.Gen.ReferenceIdeal.Run
import proofs.«124526_j31714038513724_1_alg».proof.Proof.Gen.ReferenceIdeal.Read
import proofs.«124526_j31714038513724_1_alg».proof.Proof.Gen.Pre_finite_inputs
import proofs.«124526_j31714038513724_1_alg».proof.Proof.K.Run
import proofs.«124526_j31714038513724_1_alg».proof.Proof.KI.Run
import proofs.«124526_j31714038513724_1_alg».proof.Proof.KernelIsG
import proofs.«124526_j31714038513724_1_alg».proof.Proof.RefIsG
import Idealize.ShloMosaic.Adequacy
import Idealize.ShloMosaic.Init

noncomputable section

namespace Cert.Proof

open Idealize.ShloMosaic Idealize.SL.Sem

/-- The word-level kernel program runs to the end and leaves x and T as launched. -/
theorem frame_k : @Cert.frame_Kernel Cert.Kernel.Gen.facts Cert.Pre_finite_inputs.Gen.facts :=
  fun m ρ _ => Cert.Kernel.Hand.frame (F := Bits) m ρ

/-- So does the idealized kernel program. -/
theorem frame_ki : @Cert.frame_KernelIdeal Cert.KernelIdeal.Gen.facts Cert.Pre_finite_inputs.Gen.facts :=
  fun m ρ _ => Cert.KernelIdeal.Hand.frame (F := Ideal) m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both programs, from memories that agree on x and T, end with the specification of x and T in their result. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.HandValue.result_is_G m (Cert.KernelIdeal.Hand.outsOf m)
          (Cert.KernelIdeal.Hand.outsOf_2 m) c), (h c).2⟩)
      (Cert.KernelIdeal.Hand.run_value (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v51_eq, Cert.ReferenceIdeal.RefValue.ref_is_G, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
